-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S2048x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024 : Shape := ⟨1, ![1024]⟩
abbrev S1024x512 : Shape := ⟨2, ![1024, 512]⟩
abbrev S512 : Shape := ⟨1, ![512]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_v30 : IVec S_ 1) (main_v32 : IVec S1024 1) (main_c_12 : IVec S_ 1) : IVec S_ 1 :=
  let main_v33 : IVec S_ 1 := (fun x v => Host.reduce IntOp.andi x v reducesTo_S1024_S_d0 h_S_) main_v32 main_c_12
  let main_v34 : IVec S_ 1 := andi main_v30 main_v33
  main_v34

def fn_part1 {F : FTy → Type} [FloatOps F] (main_arg4 : FVec F S1024 .f32) (main_arg5 : IVec S512 32) (main_arg6 : IVec S1024 32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_c_8 : IVec S_ 32 := constantI S_ 32 0#32
  let main_v24 : IVec S512 32 := broadcastInDim S512 ![] bcast_S_S512 main_c_8
  let main_v25 : IVec S512 1 := cmpi .sge main_arg5 main_v24
  let main_c_9 : IVec S_ 32 := constantI S_ 32 1024#32
  let main_v26 : IVec S512 32 := broadcastInDim S512 ![] bcast_S_S512 main_c_9
  let main_v27 : IVec S512 1 := cmpi .slt main_arg5 main_v26
  let main_v28 : IVec S512 1 := andi main_v25 main_v27
  let main_c_10 : IVec S_ 1 := constantI S_ 1 1#1
  let main_v29 : IVec S_ 1 := (fun x v => Host.reduce IntOp.andi x v reducesTo_S512_S_d0 h_S_) main_v28 main_c_10
  let main_v30 : IVec S_ 1 := andi main_v23 main_v29
  let main_c_11 : IVec S_ 32 := constantI S_ 32 0#32
  let main_v31 : IVec S1024 32 := broadcastInDim S1024 ![] bcast_S_S1024 main_c_11
  let main_v32 : IVec S1024 1 := cmpi .sge main_arg6 main_v31
  let main_c_12 : IVec S_ 1 := constantI S_ 1 1#1
  fn_part2 (F := F) main_v30 main_v32 main_c_12

def fn {F : FTy → Type} [FloatOps F] (main_arg0 : FVec F S8x4096x1024 .f32) (main_arg1 : FVec F S1024 .f32) (main_arg2 : FVec F S1024 .f32) (main_arg3 : FVec F S1024x512 .f32) (main_arg4 : FVec F S1024 .f32) (main_arg5 : IVec S512 32) (main_arg6 : IVec S1024 32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_v13 main_v16
-- ==== Kernel.lean ====
abbrev S8x4096x1024 : Shape := ⟨3, ![8, 4096, 1024]⟩
abbrev S1024 : Shape := ⟨1, ![1024]⟩
abbrev S1024x512 : Shape := ⟨2, ![1024, 512]⟩
abbrev S512 : Shape := ⟨1, ![512]⟩
abbrev S1024x1 : Shape := ⟨2, ![1024, 1]⟩
abbrev S1x512 : Shape := ⟨2, ![1, 512]⟩
abbrev S1x1024 : Shape := ⟨2, ![1, 1024]⟩
abbrev S1024x1024 : Shape := ⟨2, ![1024, 1024]⟩
abbrev S512x1024 : Shape := ⟨2, ![512, 1024]⟩
abbrev S32768x1024 : Shape := ⟨2, ![32768, 1024]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 35
  | .vmem => 6
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S1024x512, .f32⟩
  | .hbm, ⟨4, _⟩ => ⟨S1024, .f32⟩
  | .hbm, ⟨5, _⟩ => ⟨S512, .i32⟩
  | .hbm, ⟨6, _⟩ => ⟨S1024, .i32⟩
  | .hbm, ⟨7, _⟩ => ⟨S1024, .i32⟩
  | .hbm, ⟨8, _⟩ => ⟨S1024x1, .i32⟩
  | .hbm, ⟨9, _⟩ => ⟨S1x512, .i32⟩
  | .hbm, ⟨10, _⟩ => ⟨S1024x512, .i32⟩
  | .hbm, ⟨11, _⟩ => ⟨S1024x512, .i32⟩
  | .hbm, ⟨12, _⟩ => ⟨S1024x512, .i1⟩
  | .hbm, ⟨13, _⟩ => ⟨S1024x512, .f32⟩
  | .hbm, ⟨14, _⟩ => ⟨S1024x1, .i32⟩
  | .hbm, ⟨15, _⟩ => ⟨S1x1024, .i32⟩
  | .hbm, ⟨16, _⟩ => ⟨S1024x1024, .i32⟩
  | .hbm, ⟨17, _⟩ => ⟨S1024x1024, .i32⟩
  | .hbm, ⟨18, _⟩ => ⟨S1024x1024, .i1⟩
  | .hbm, ⟨19, _⟩ => ⟨S1024x1024, .f32⟩
  | .hbm, ⟨20, _⟩ => ⟨S512x1024, .f32⟩
  | .hbm, ⟨21, _⟩ => ⟨S1024x1024, .f32⟩
  | .hbm, ⟨22, _⟩ => ⟨S1024x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1024x1, .f32⟩
  | .hbm, ⟨29, _⟩ => ⟨S1024x1024, .f32⟩
  | .hbm, ⟨30, _⟩ => ⟨S1024x1024, .f32⟩
  | .hbm, ⟨31, _⟩ => ⟨S1024x1024, .bf16⟩
  | .hbm, ⟨32, _⟩ => ⟨S32768x1024, .f32⟩
  | .hbm, ⟨33, _⟩ => ⟨S32768x1024, .f32⟩
  | .hbm, ⟨34, _⟩ => ⟨S8x4096x1024, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S1x1024, .f32⟩
  | .local _ .vmem, ⟨4, _⟩ => ⟨S2048x1024, .f32⟩
  | .local _ .vmem, ⟨5, _⟩ => ⟨S2048x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_call0_v17 : Ref sig .tc := ⟨.hbm, 24, rfl⟩
abbrev main_call0_v18 : Ref sig .tc := ⟨.hbm, 25, rfl⟩
abbrev main_call0_v19 : Ref sig .tc := ⟨.hbm, 26, rfl⟩
abbrev main_v0_1 : Ref sig .tc := ⟨.hbm, 27, rfl⟩
abbrev main_call0_v21 : Ref sig .tc := ⟨.hbm, 28, rfl⟩
abbrev main_call0_v22 : Ref sig .tc := ⟨.hbm, 29, rfl⟩
abbrev main_call0_v23 : Ref sig .tc := ⟨.hbm, 30, rfl⟩
abbrev main_v0_0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S1024_S1024x1_0 : S1024.BroadcastsInDim S1024x1 (![0] : Fin 1 → Fin S1024x1.rank)
  bcast_S512_S1x512_1 : S512.BroadcastsInDim S1x512 (![1] : Fin 1 → Fin S1x512.rank)
  bcast_S1024x1_S1024x512_0_1 : S1024x1.BroadcastsInDim S1024x512 (![0, 1] : Fin 2 → Fin S1024x512.rank)
  bcast_S1x512_S1024x512_0_1 : S1x512.BroadcastsInDim S1024x512 (![0, 1] : Fin 2 → Fin S1024x512.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  transposes_S1024x512_S512x1024_1_0 : S1024x512.Transposes [1, 0] S512x1024
  shapeCasts_S1024_S1x1024 : S1024.ShapeCasts S1x1024
  bitsLt_bf16_f32 : FTy.bits .bf16 < FTy.bits .f32
  shapeCasts_S8x4096x1024_S32768x1024 : S8x4096x1024.ShapeCasts S32768x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S2048x1024_S2048 : S2048x1024.Reduces [1] S2048
  shapeCasts_S2048_S2048x1 : S2048.ShapeCasts S2048x1
  broadcasts_S2048x1_S2048x1024 : S2048x1.Broadcasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S32768x1024_S8x4096x1024 : S32768x1024.ShapeCasts S8x4096x1024
  dot_S1024x512_S512x1024_S1024x1024_1_0_0_1_n_n_wf : DotDims.WF S1024x512 S512x1024 S1024x1024 [1] [0] [0] [1] [] []
  dot_S1024x1024_S1024x1024_S1024x1024_1_0_0_1_n_n_wf : DotDims.WF S1024x1024 S1024x1024 S1024x1024 [1] [0] [0] [1] [] []
  dot_S1x1024_S1024x1024_S1x1024_1_0_0_1_n_n_wf : DotDims.WF S1x1024 S1024x1024 S1x1024 [1] [0] [0] [1] [] []
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S32768x1024.size a
  hwx0_3 : ∀ i : grid0.Coords, EltTy.bits .f32 = 32 ∨ (Rect.block (s := S32768x1024) S2048x1024.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024 : Shape := ⟨1, ![1024]⟩
abbrev S1024x512 : Shape := ⟨2, ![1024, 512]⟩
abbrev S512 : Shape := ⟨1, ![512]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S512x1 : Shape := ⟨2, ![512, 1]⟩
abbrev S8x4096x512 : Shape := ⟨3, ![8, 4096, 512]⟩
abbrev S1024x1 : Shape := ⟨2, ![1024, 1]⟩

abbrev nBuf : Space → Nat
  | .hbm => 58
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S1024x512, .f32⟩
  | .hbm, ⟨4, _⟩ => ⟨S1024, .f32⟩
  | .hbm, ⟨5, _⟩ => ⟨S512, .i32⟩
  | .hbm, ⟨6, _⟩ => ⟨S1024, .i32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S1x1x1024, .f32⟩
  | .hbm, ⟨31, _⟩ => ⟨S8x4096x1024, .f32⟩
  | .hbm, ⟨32, _⟩ => ⟨S8x4096x1024, .f32⟩
  | .hbm, ⟨33, _⟩ => ⟨S1x1x1024, .f32⟩
  | .hbm, ⟨34, _⟩ => ⟨S8x4096x1024, .f32⟩
  | .hbm, ⟨35, _⟩ => ⟨S8x4096x1024, .f32⟩
  | .hbm, ⟨36, _⟩ => ⟨S_, .i32⟩
  | .hbm, ⟨37, _⟩ => ⟨S512, .i32⟩
  | .hbm, ⟨38, _⟩ => ⟨S512, .i1⟩
  | .hbm, ⟨39, _⟩ => ⟨S_, .i32⟩
  | .hbm, ⟨40, _⟩ => ⟨S512, .i32⟩
  | .hbm, ⟨41, _⟩ => ⟨S512, .i32⟩
  | .hbm, ⟨42, _⟩ => ⟨S512, .i32⟩
  | .hbm, ⟨43, _⟩ => ⟨S512x1, .i32⟩
  | .hbm, ⟨44, _⟩ => ⟨S8x4096x512, .f32⟩
  | .hbm, ⟨45, _⟩ => ⟨S8x4096x1024, .f32⟩
  | .hbm, ⟨46, _⟩ => ⟨S1x1x1024, .f32⟩
  | .hbm, ⟨47, _⟩ => ⟨S8x4096x1024, .f32⟩
  | .hbm, ⟨48, _⟩ => ⟨S8x4096x1024, .f32⟩
  | .hbm, ⟨49, _⟩ => ⟨S_, .i32⟩
  | .hbm, ⟨50, _⟩ => ⟨S1024, .i32⟩
  | .hbm, ⟨51, _⟩ => ⟨S1024, .i1⟩
  | .hbm, ⟨52, _⟩ => ⟨S_, .i32⟩
  | .hbm, ⟨53, _⟩ => ⟨S1024, .i32⟩
  | .hbm, ⟨54, _⟩ => ⟨S1024, .i32⟩
  | .hbm, ⟨55, _⟩ => ⟨S1024, .i32⟩
  | .hbm, ⟨56, _⟩ => ⟨S1024x1, .i32⟩
  | .hbm, ⟨57, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_v35 : Ref sig .tc := ⟨.hbm, 50, rfl⟩
abbrev main_v36 : Ref sig .tc := ⟨.hbm, 51, rfl⟩
abbrev main_c_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]

class Facts₀ : Prop where
  reducesTo_S8x4096x1024_S8x4096_d2 : S8x4096x1024.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S_S512 : S_.BroadcastsInDim S512 (![] : Fin 0 → Fin S512.rank)
  bcast_S512_S512x1_0 : S512.BroadcastsInDim S512x1 (![0] : Fin 1 → Fin S512x1.rank)
  bcast_S_S1024 : S_.BroadcastsInDim S1024 (![] : Fin 0 → Fin S1024.rank)
  bcast_S1024_S1024x1_0 : S1024.BroadcastsInDim S1024x1 (![0] : Fin 1 → Fin S1024x1.rank)
  gather_S8x4096x1024_S512x1_S8x4096x512_01_2_n_n_2_1_840961_wf : GatherDims.WF S8x4096x1024 S512x1 S8x4096x512 [0, 1] [2] [] [2] [] 1 ![8, 4096, 1]
  dot_S8x4096x512_S1024x512_S8x4096x1024_2_1_01_0_n_n_wf : DotDims.WF S8x4096x512 S1024x512 S8x4096x1024 [2] [1] [0, 1] [0] [] []
  scatter_S8x4096x1024_S1024x1_S8x4096x1024_01_2_2_1_wf : ScatterDims.WF S8x4096x1024 S1024x1 S8x4096x1024 [0, 1] [2] [2] 1

variable [Facts₀]

def gather_S8x4096x1024_S512x1_S8x4096x512_01_2_n_n_2_1_840961 : GatherDims S8x4096x1024 S512x1 S8x4096x512 where
  offsetDims := [0, 1]
  collapsedSliceDims := [2]
  operandBatchingDims := []
  startIndicesBatchingDims := []
  startIndexMap := [2]
  indexVectorDim := 1
  sliceSizes := ![8, 4096, 1]
  wf := gather_S8x4096x1024_S512x1_S8x4096x512_01_2_n_n_2_1_840961_wf
def dot_S8x4096x512_S1024x512_S8x4096x1024_2_1_01_0_n_n : DotDims S8x4096x512 S1024x512 S8x4096x1024 where
  lhsContracting := [2]
  rhsContracting := [1]
  lhsNonContracting := [0, 1]
  rhsNonContracting := [0]
  lhsBatch := []
  rhsBatch := []
  wf := dot_S8x4096x512_S1024x512_S8x4096x1024_2_1_01_0_n_n_wf
def scatter_S8x4096x1024_S1024x1_S8x4096x1024_01_2_2_1 : ScatterDims S8x4096x1024 S1024x1 S8x4096x1024 where
  updateWindowDims := [0, 1]
  insertedWindowDims := [2]
  scatterDimsToOperandDims := [2]
  indexVectorDim := 1
  wf := scatter_S8x4096x1024_S1024x1_S8x4096x1024_01_2_2_1_wf

class Facts : Prop extends Facts₀ where

variable [Facts]
-- ==== Proof.Spec.lean ====
/-
  The layer over the reals, one row of 1024 channels at a time.

  The reference normalises a row (mean, variance of the deviations, reciprocal root of variance plus epsilon),
  applies the affine pair (lnw, lnb), gathers 512 of the 1024 channels by s3, applies the 1024 x 512 matrix W and the
  bias bb, and adds channel e of that result into output channel s5 e (several e may land on one channel).

  The kernel folds gather, matrix and scatter into ONE 1024 x 1024 matrix and one bias row computed beforehand:
  with oneHot d p = [d = s3 p] and scat e j = [s5 e = j],
      M2 d j   = sum over e of (sum over p of oneHot d p * W e p) * scat e j,
      mat d j  = lnw d * M2 d j,      bias j = (sum over e of bb e * scat e j) + (sum over d of lnb d * M2 d j),
  computes the variance as mean of squares minus squared mean, and returns x j + (sum over d of n0 d * mat d j) + bias j
  for the normalised row n0 (without the affine pair).  The two agree because a sum against a one-hot column picks
  one term, and because mean of squares minus squared mean IS the mean squared deviation.
-/
import Idealize.ShloMosaic.PureOps.Ideal
import Idealize.ShloMosaic.Lib.ValueIdx

noncomputable section

namespace Cert.Spec

open Idealize.ShloMosaic Idealize.ShloMosaic.ValueIdx
open scoped BigOperators

/-- The epsilon both programs add to the variance: the single-precision number nearest 1e-5, exactly. -/
def epsR : ℝ := 10995116 / 2 ^ 40

theorem epsR_pos : 0 < epsR := by unfold epsR; positivity

/-- A row of 1024 channels. -/
abbrev Row := Fin 1024 → ℝ

/-! ## The reference's row -/

def mean (x : Row) : ℝ := (∑ k, x k) / 1024
def var (x : Row) : ℝ := (∑ k, (x k - mean x) * (x k - mean x)) / 1024
def rstd (x : Row) : ℝ := (Real.sqrt (var x + epsR))⁻¹
/-- Normalised, scaled and shifted. -/
def normed (x lnw lnb : Row) (d : Fin 1024) : ℝ := (x d - mean x) * rstd x * lnw d + lnb d
/-- Channel e of the small linear layer on the gathered channels. -/
def lin (x lnw lnb bb : Row) (W : Fin 1024 → Fin 512 → ℝ) (s3 : Fin 512 → Fin 1024) (e : Fin 1024) : ℝ :=
  (∑ p, normed x lnw lnb (s3 p) * W e p) + bb e
/-- Update e lands on channel j: the index word of e, read signed, is j. -/
def hit (s5 : Fin 1024 → BitVec 32) (e j : Fin 1024) : Prop := (s5 e).toInt = (j.val : ℤ)
instance (s5 : Fin 1024 → BitVec 32) (e j : Fin 1024) : Decidable (hit s5 e j) := by unfold hit; infer_instance
/-- The reference's output row: the input plus every update that lands on the channel. -/
def outRow (x lnw lnb bb : Row) (W : Fin 1024 → Fin 512 → ℝ) (s3 : Fin 512 → Fin 1024) (s5 : Fin 1024 → BitVec 32)
    (j : Fin 1024) : ℝ :=
  x j + ∑ e, if hit s5 e j then lin x lnw lnb bb W s3 e else 0

/-! ## The kernel's row -/

def kmean (x : Row) : ℝ := (∑ k, x k) * (1 / 1024)
def kvar (x : Row) : ℝ := (∑ k, x k * x k) * (1 / 1024) - kmean x * kmean x
def krstd (x : Row) : ℝ := (Real.sqrt (kvar x + epsR))⁻¹
/-- Normalised, without the affine pair. -/
def kn0 (x : Row) (d : Fin 1024) : ℝ := (x d - kmean x) * krstd x
/-- What the kernel body returns for a row, from the row, a 1024 x 1024 matrix and a bias row. -/
def kRow (x : Row) (mat : Fin 1024 → Fin 1024 → ℝ) (bias : Row) (j : Fin 1024) : ℝ :=
  x j + (∑ d, kn0 x d * mat d j) + bias j

def oneHot (s3 : Fin 512 → Fin 1024) (d : Fin 1024) (p : Fin 512) : ℝ := if d = s3 p then 1 else 0
def scat (s5 : Fin 1024 → BitVec 32) (e j : Fin 1024) : ℝ := if hit s5 e j then 1 else 0
def kM (W : Fin 1024 → Fin 512 → ℝ) (s3 : Fin 512 → Fin 1024) (d e : Fin 1024) : ℝ := ∑ p, oneHot s3 d p * W e p
def kM2 (W : Fin 1024 → Fin 512 → ℝ) (s3 : Fin 512 → Fin 1024) (s5 : Fin 1024 → BitVec 32) (d j : Fin 1024) : ℝ :=
  ∑ e, kM W s3 d e * scat s5 e j
/-- The folded matrix the kernel multiplies by. -/
def kMat (lnw : Row) (W : Fin 1024 → Fin 512 → ℝ) (s3 : Fin 512 → Fin 1024) (s5 : Fin 1024 → BitVec 32) (d j : Fin 1024) : ℝ :=
  lnw d * kM2 W s3 s5 d j
/-- The folded bias row. -/
def kBias (lnb bb : Row) (W : Fin 1024 → Fin 512 → ℝ) (s3 : Fin 512 → Fin 1024) (s5 : Fin 1024 → BitVec 32) (j : Fin 1024) : ℝ :=
  (∑ e, bb e * scat s5 e j) + (∑ d, lnb d * kM2 W s3 s5 d j)
/-- The kernel's output row. -/
def kOutRow (x lnw lnb bb : Row) (W : Fin 1024 → Fin 512 → ℝ) (s3 : Fin 512 → Fin 1024) (s5 : Fin 1024 → BitVec 32)
    (j : Fin 1024) : ℝ :=
  kRow x (kMat lnw W s3 s5) (kBias lnb bb W s3 s5) j

/-! ## The arguments as real arrays -/

abbrev SX : Shape := ⟨3, ![8, 4096, 1024]⟩
abbrev SV : Shape := ⟨1, ![1024]⟩
abbrev SW : Shape := ⟨2, ![1024, 512]⟩
abbrev SP : Shape := ⟨1, ![512]⟩

/-- Real witnesses of the seven arguments: the five float arrays as real arrays, the gather indices as channels,
    the scatter indices as their words. -/
structure RealArgs where
  xr : Fin 8 → Fin 4096 → Row
  lnw : Row
  lnb : Row
  W : Fin 1024 → Fin 512 → ℝ
  bb : Row
  s3 : Fin 512 → Fin 1024
  s5 : Fin 1024 → BitVec 32

/-- The seven argument arrays, at the ideal values, ARE the witnesses; every scatter index reads non-negative. -/
structure Agrees (A : RealArgs) (x0 : FVec Ideal SX .f32) (x1 x2 : FVec Ideal SV .f32) (x3 : FVec Ideal SW .f32)
    (x4 : FVec Ideal SV .f32) (x5 : IVec SP 32) (x6 : IVec SV 32) : Prop where
  hx : ∀ (b : Fin 8) (s : Fin 4096) (k : Fin 1024), x0 (ix3 b s k) = ((A.xr b s k : ℝ) : EReal)
  hlnw : ∀ d : Fin 1024, x1 (ix1 d) = ((A.lnw d : ℝ) : EReal)
  hlnb : ∀ d : Fin 1024, x2 (ix1 d) = ((A.lnb d : ℝ) : EReal)
  hW : ∀ (e : Fin 1024) (p : Fin 512), x3 (ix2 e p) = ((A.W e p : ℝ) : EReal)
  hbb : ∀ e : Fin 1024, x4 (ix1 e) = ((A.bb e : ℝ) : EReal)
  hs3 : ∀ p : Fin 512, x5 (ix1 p) = BitVec.ofNat 32 (A.s3 p).val
  hs5 : ∀ e : Fin 1024, x6 (ix1 e) = A.s5 e
  hs5nn : ∀ e : Fin 1024, 0 ≤ (A.s5 e).toInt

/-- The common result array: the reference's output row at every (batch, position). -/
def Gfun (A : RealArgs) : FVec Ideal SX .f32 :=
  fun i => ((outRow (A.xr (i 0) (i 1)) A.lnw A.lnb A.bb A.W A.s3 A.s5 (i 2) : ℝ) : EReal)

theorem Gfun_apply (A : RealArgs) (b : Fin 8) (s : Fin 4096) (j : Fin 1024) :
    Gfun A (ix3 b s j) = ((outRow (A.xr b s) A.lnw A.lnb A.bb A.W A.s3 A.s5 j : ℝ) : EReal) := rfl

end Cert.Spec

end
-- ==== Proof.Consts.lean ====
/-
  The float literals of the two programs as extended reals: 2^-10 (the kernel's reciprocal of the row length), 1024 (the
  reference's divisor), the shared epsilon, and a truth bit converted to a float (0 or 1).
-/
import proofs.«430660_j16733192585808_3_alg».proof.Proof.Spec
import Idealize.ShloMosaic.Lib.IdealHost

noncomputable section

namespace Cert.Consts

open Idealize.ShloMosaic Cert.Spec

/-- The pattern 0x3A800000 is 2^-10 = 1/1024 exactly. -/
theorem ofBits_inv1024 : Ideal.ofBits .f32 0x3A800000#32 = ((1 / 1024 : ℝ) : EReal) := by
  simp [Ideal.ofBits, Ideal.ieee, -EReal.coe_mul]; norm_num

/-- The pattern 0x44800000 is 1024. -/
theorem ofBits_1024 : Ideal.ofBits .f32 0x44800000#32 = ((1024 : ℝ) : EReal) := by
  simp [Ideal.ofBits, Ideal.ieee, -EReal.coe_mul]; norm_num

/-- The pattern 0x3727C5AC is the epsilon of the specification. -/
theorem ofBits_eps : Ideal.ofBits .f32 0x3727C5AC#32 = ((epsR : ℝ) : EReal) := by
  unfold epsR
  simp [Ideal.ofBits, Ideal.ieee, -EReal.coe_mul]; norm_num

theorem ofBits_zero : Ideal.ofBits .f32 0x00000000#32 = ((0 : ℝ) : EReal) := by
  rw [Ideal.ofBits_zero_f32]; rfl

/-- A truth bit converted to a float is 1 when set and 0 when clear. -/
theorem uitofp_bit (b : BitVec 1) : (FloatOps.uitofp (F := Ideal) .f32 b : EReal) = (((if b = 1#1 then 1 else 0 : ℝ)) : EReal) := by
  have h : b = 0#1 ∨ b = 1#1 := by
    have := b.isLt
    rcases Nat.lt_succ_iff_lt_or_eq.mp (by simpa using this : b.toNat < 1 + 1) with h0 | h1
    · left; apply BitVec.eq_of_toNat_eq; simpa using Nat.lt_one_iff.mp h0
    · right; apply BitVec.eq_of_toNat_eq; simpa using h1
  rcases h with rfl | rfl
  · show (((0#1 : BitVec 1).toNat : ℝ) : EReal) = _
    simp
  · show (((1#1 : BitVec 1).toNat : ℝ) : EReal) = _
    simp

end Cert.Consts

end
-- ==== Proof.PreFacts.lean ====
/-
  What the precondition says of the seven arguments: the five float arrays hold real numbers, every gather index lies in
  [0, 1024), every scatter index is non-negative.
-/
import proofs.«430660_j16733192585808_3_alg».proof.Defs
import proofs.«430660_j16733192585808_3_alg».proof.Proof.Gen.Pre_finite_inputs
import proofs.«430660_j16733192585808_3_alg».proof.Proof.Spec
import proofs.«430660_j16733192585808_3_alg».proof.Proof.Consts
import Idealize.ShloMosaic.Lib.ReduceAll

noncomputable section

namespace Cert.PreFacts

open Idealize.ShloMosaic Idealize.ShloMosaic.ValueIdx Idealize.SL.Sem Cert.Spec
open Cert.KernelIdeal

attribute [local instance] Cert.Pre_finite_inputs.Gen.facts

/-- The rank-0 shape has one index. -/
local instance : Subsingleton Cert.Pre_finite_inputs.S_.Idx := ⟨fun a b => funext fun d => d.elim0⟩

/-- The pattern 0x7F800000 is +∞. -/
theorem ofBits_inf : Ideal.ofBits .f32 0x7F800000#32 = (⊤ : EReal) := by
  simp [Ideal.ofBits, Ideal.ieee]

theorem ofBool_eq_one (b : Bool) : BitVec.ofBool b = 1#1 ↔ b = true := by cases b <;> decide

/-- An extended real whose absolute value max x (-x) is below +∞ is a real number: it is neither +∞ nor -∞. -/
theorem real_of_abs_lt_top (x : EReal) (h : Ideal.cmp .olt (max x (-x)) ⊤ = 1#1) : x = ((x.toReal : ℝ) : EReal) := by
  unfold Ideal.cmp at h
  rw [ofBool_eq_one] at h
  simp only [decide_eq_true_eq] at h
  have h1 : x ≠ ⊤ := fun e => by rw [e] at h; simp at h
  have h2 : x ≠ ⊥ := fun e => by rw [e] at h; simp at h
  exact (EReal.coe_toReal h1 h2).symm

/-- One element of a float conjunct: |x i| compared below the broadcast +∞ makes x i a real. -/
theorem real_at {s : Shape} (hb : Cert.Pre_finite_inputs.S_.BroadcastsInDim s (![] : Fin 0 → Fin s.rank))
    (x : FVec Ideal s .f32) (i : s.Idx)
    (h : cmpf .olt (Host.absf x) (broadcastInDim s ![] hb (constant Cert.Pre_finite_inputs.S_ .f32 0x7F800000#32)) i = 1#1) :
    x i = (((x i).toReal : ℝ) : EReal) := by
  apply real_of_abs_lt_top
  rw [← ofBits_inf]
  exact h

/-- A word that reads non-negative signed is the word of its signed value's natural number. -/
theorem ofNat_toInt_toNat (w : BitVec 32) (h0 : 0 ≤ w.toInt) : BitVec.ofNat 32 w.toInt.toNat = w := by
  have hw := w.isLt
  have e : w.toInt = (w.toNat : ℤ) := by
    rw [BitVec.toInt_eq_toNat_cond] at h0 ⊢
    split at h0 <;> rename_i hc
    · rw [if_pos hc]
    · exfalso; omega
  rw [e, Int.toNat_natCast]
  apply BitVec.eq_of_toNat_eq
  rw [BitVec.toNat_ofNat]
  exact Nat.mod_eq_of_lt hw

/-- Real arrays, in-range gather indices and non-negative scatter indices give the witnesses. -/
theorem agrees_of_facts (x0 : FVec Ideal SX .f32) (x1 x2 : FVec Ideal SV .f32) (x3 : FVec Ideal SW .f32)
    (x4 : FVec Ideal SV .f32) (x5 : IVec SP 32) (x6 : IVec SV 32)
    (h0 : ∀ i, x0 i = (((x0 i).toReal : ℝ) : EReal)) (h1 : ∀ i, x1 i = (((x1 i).toReal : ℝ) : EReal))
    (h2 : ∀ i, x2 i = (((x2 i).toReal : ℝ) : EReal)) (h3 : ∀ i, x3 i = (((x3 i).toReal : ℝ) : EReal))
    (h4 : ∀ i, x4 i = (((x4 i).toReal : ℝ) : EReal))
    (h5 : ∀ i, 0 ≤ (x5 i).toInt ∧ (x5 i).toInt < 1024) (h6 : ∀ i, 0 ≤ (x6 i).toInt) :
    ∃ A : RealArgs, Agrees A x0 x1 x2 x3 x4 x5 x6 :=
  ⟨{ xr := fun b s k => (x0 (ix3 b s k)).toReal
     lnw := fun d => (x1 (ix1 d)).toReal
     lnb := fun d => (x2 (ix1 d)).toReal
     W := fun e p => (x3 (ix2 e p)).toReal
     bb := fun e => (x4 (ix1 e)).toReal
     s3 := fun p => ⟨(x5 (ix1 p)).toInt.toNat, by have := h5 (ix1 p); omega⟩
     s5 := fun e => x6 (ix1 e) },
   { hx := fun b s k => h0 _
     hlnw := fun d => h1 _
     hlnb := fun d => h2 _
     hW := fun e p => h3 _
     hbb := fun e => h4 _
     hs3 := fun p => (ofNat_toInt_toNat _ (h5 (ix1 p)).1).symm
     hs5 := fun e => rfl
     hs5nn := fun e => h6 _ }⟩

/-- Under the precondition the arguments on each device have real witnesses. -/
theorem agrees_of_pre (m : (ℓ : Loc nD τ sig) → Buf (Elt Ideal) ℓ) (hpre : Cert.Pre_KernelIdeal m) (c : Dev nD) :
    ∃ A : RealArgs, Agrees A (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) := by
  have h := congrFun (hpre c) ValueIdx.ix0
  dsimp only [Cert.Pre_finite_inputs.fn, Cert.Pre_finite_inputs.fn_part1, Cert.Pre_finite_inputs.fn_part2] at h
  obtain ⟨h, g6⟩ := IntOp.andi_eq_one.1 h
  obtain ⟨h, g5⟩ := IntOp.andi_eq_one.1 h
  obtain ⟨h, g4⟩ := IntOp.andi_eq_one.1 h
  obtain ⟨h, g3⟩ := IntOp.andi_eq_one.1 h
  obtain ⟨h, g2⟩ := IntOp.andi_eq_one.1 h
  obtain ⟨g0, g1⟩ := IntOp.andi_eq_one.1 h
  refine agrees_of_facts _ _ _ _ _ _ _
    (fun i => real_at _ _ i (Host.reduce_andi_all _ _ _ _ _ g0 i))
    (fun i => real_at _ _ i (Host.reduce_andi_all _ _ _ _ _ g1 i))
    (fun i => real_at _ _ i (Host.reduce_andi_all _ _ _ _ _ g2 i))
    (fun i => real_at _ _ i (Host.reduce_andi_all _ _ _ _ _ g3 i))
    (fun i => real_at _ _ i (Host.reduce_andi_all _ _ _ _ _ g4 i))
    (fun i => ?_) (fun i => ?_)
  · obtain ⟨a, b⟩ := IntOp.andi_eq_one.1 (Host.reduce_andi_all _ _ _ _ _ g5 i)
    exact ⟨IntOp.cmpi_sge.1 a, IntOp.cmpi_slt.1 b⟩
  · exact IntOp.cmpi_sge.1 (Host.reduce_andi_all _ _ _ _ _ g6 i)

end Cert.PreFacts

end
-- ==== Proof.LibGS.lean ====
/-
  General facts about the host's row gather and accumulating row scatter, and about extended reals:
  a finite sum times a non-negative finite factor distributes; the reciprocal square root of a number at least
  one is a non-negative finite number; a row gather reads the table's row at the clamped start index; an update
  that a row scatter lands on an operand element has that element's row as its start index and the same column;
  an in-range word is its own wrap and its own clamp.
-/
import Idealize.ShloMosaic.PureOps.Ideal
import Idealize.ShloMosaic.PureOps.Ideal.Laws
import Idealize.ShloMosaic.Lib.ValueIdx
import Idealize.ShloMosaic.Lib.IdealHost
import Idealize.ShloMosaic.Lib.StableHlo.Predicate
import Mathlib.Data.EReal.Operations

noncomputable section

namespace Cert.LibGS

open Idealize.ShloMosaic Idealize.ShloMosaic.ValueIdx
open scoped BigOperators

/-! ## Extended reals -/

/-- A finite sum times a non-negative finite factor distributes. -/
theorem sum_mul_const {ι : Type} [DecidableEq ι] (S : Finset ι) (f : ι → EReal) (D : EReal) (h0 : 0 ≤ D) (ht : D ≠ ⊤) :
    (∑ j ∈ S, f j) * D = ∑ j ∈ S, f j * D := by
  induction S using Finset.induction_on with
  | empty => simp
  | insert a S ha ih =>
    rw [Finset.sum_insert ha, Finset.sum_insert ha, EReal.right_distrib_of_nonneg_of_ne_top h0 ht, ih]

/-- The reciprocal square root of something at least one is a non-negative finite number. -/
theorem rsqrt_bounds (x : EReal) (h : 1 ≤ x) : 0 ≤ Ideal.rsqrt x ∧ Ideal.rsqrt x ≠ ⊤ := by
  induction x using EReal.rec with
  | bot =>
    have hlt : (⊥ : EReal) < 1 := by exact_mod_cast EReal.bot_lt_coe (1 : ℝ)
    exact absurd h (not_le.mpr hlt)
  | top => simp
  | coe r =>
    have hr : (1 : ℝ) ≤ r := by exact_mod_cast h
    have h1 : ¬ r < 0 := by linarith
    have h2 : ¬ r = 0 := by linarith
    rw [Ideal.rsqrt_coe, if_neg h1, if_neg h2]
    refine ⟨?_, EReal.coe_ne_top _⟩
    exact_mod_cast inv_nonneg.mpr (Real.sqrt_nonneg r)

/-! ## The accumulating scatter, unfolded -/

/-- The accumulating scatter at the ideal values: each operand element plus the sum of the updates landing on it. -/
theorem scatterAdd_apply {s si u : Shape} {φ : FTy} {w : Nat} (d : ScatterDims s si u) (x : FVec Ideal s φ) (idx : IVec si w)
    (upd : FVec Ideal u φ) (i : s.Idx) :
    Host.scatterAdd (F := Ideal) d x idx upd i = x i + ∑ j ∈ Finset.univ.filter (fun j => d.resultIdx? j idx = some i), upd j := rfl

/-! ## Lists with one entry -/

/-- Every entry of a one-entry list is that entry. -/
theorem getElem_of_eq_singleton {α : Type} {l : List α} {a : α} (h : l = [a]) (k : Nat) (hk : k < l.length) : l[k] = a := by
  subst h
  have hk0 : k = 0 := by simpa using hk
  subst hk0; rfl

/-! ## The row gather -/

/-- The row gather read at (p, q): for an [N, C] table and an [n, 1] column of start indices (the result's axis 1 the
    offset axis, the table's axis 0 collapsed and named by the start index map, the index vector on axis 1), the table's
    entry at column q of the row that position p's start index names, read signed and clamped into [0, N - 1]. -/
theorem gather_rows {α : Type} {N n C w : Nat} (d : GatherDims ⟨2, ![N, C]⟩ ⟨2, ![n, 1]⟩ ⟨2, ![n, C]⟩)
    (hoff : d.offsetDims = [1]) (hcoll : d.collapsedSliceDims = [0]) (hob : d.operandBatchingDims = []) (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 (⟨min (idx (ix2 p (0 : Fin 1))).toInt.toNat (N - 1), by omega⟩ : Fin N) q) := by
  have hb : ∀ a : Fin 2, a ∉ d.operandBatchingDims := by intro a; rw [hob]; exact List.not_mem_nil
  have hbd : d.batchDims = [0] := by
    show Shape.kept _ d.offsetDims = [0]
    rw [hoff]; rfl
  -- the row: the start index of position p, read signed and clamped
  have h0 : (d.operandIdx (ix2 p q) idx (0 : Fin 2)).val = min (idx (ix2 p (0 : Fin 1))).toInt.toNat (N - 1) := by
    have hk : (0 : Fin 2) ∉ d.sKept := by rw [GatherDims.mem_sKept, hcoll]; simp
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes (0 : Fin 2)) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [getElem_of_eq_singleton hbd]
      rfl
    | ⟨1, _⟩ =>
      unfold GatherDims.siIdx
      rw [dif_pos (by rw [hivd])]
      apply Fin.ext
      show List.idxOf (0 : Fin 2) d.startIndexMap = 0
      rw [hsim]; simp
  -- the column: the result's own column
  have h1 : (d.operandIdx (ix2 p q) idx (1 : Fin 2)).val = q.val := by
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb _), Nat.add_zero, GatherDims.start, dif_neg hm,
      Nat.zero_add]
    unfold GatherDims.offCoord
    rw [dif_pos hk, getElem_of_eq_singleton hoff]
    rfl
  unfold Host.gather
  congr 1
  funext a
  apply Fin.ext
  match a with
  | ⟨0, _⟩ => exact h0
  | ⟨1, _⟩ => exact h1

/-! ## Where a row scatter lands -/

/-- Where a row scatter lands: for an [N, C] operand, an [n, 1] column of scatter indices and [n, C] updates (the
    updates' axis 1 the window axis, the operand's axis 0 inserted and named by the scatter map, the index vector on
    axis 1), if update j lands on operand index i then the start index of j's row, read signed, is i's row, and the
    two columns agree. -/
theorem scatter_rows_lands {N n C w : Nat} (d : ScatterDims ⟨2, ![N, C]⟩ ⟨2, ![n, 1]⟩ ⟨2, ![n, C]⟩)
    (huw : d.updateWindowDims = [1]) (hins : d.insertedWindowDims = [0]) (hsd : d.scatterDimsToOperandDims = [0]) (hivd : d.indexVectorDim = 1)
    (idx : IVec ⟨2, ![n, 1]⟩ w) (j : (⟨2, ![n, C]⟩ : Shape).Idx) (i : (⟨2, ![N, C]⟩ : Shape).Idx) (h : d.resultIdx? j idx = some i) :
    (idx (ix2 (⟨(j 0).val, (j 0).isLt⟩ : Fin n) (0 : Fin 1))).toInt = ((i 0).val : Int) ∧ (j 1).val = (i 1).val := by
  have hsk : d.sKept = [1] := by
    show Shape.kept _ d.insertedWindowDims = [1]
    rw [hins]; rfl
  have hus : d.uScatter = [0] := by
    show Shape.kept _ d.updateWindowDims = [0]
    rw [huw]; rfl
  -- axis 0: the start is the start index of j's row, the window coordinate is zero
  have hw0 : d.window j (0 : Fin 2) = 0 := by
    unfold ScatterDims.window
    rw [dif_neg (by rw [hsk]; simp)]
  have hs0 : d.start j idx (0 : Fin 2) = (idx (ix2 (⟨(j 0).val, (j 0).isLt⟩ : Fin n) (0 : Fin 1))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      rw [getElem_of_eq_singleton hus]
    | ⟨1, _⟩ =>
      unfold ScatterDims.siIdx
      rw [dif_pos (by rw [hivd])]
      apply Fin.ext
      show List.idxOf (0 : Fin 2) d.scatterDimsToOperandDims = 0
      rw [hsd]; simp
  -- axis 1: the start is zero, the window coordinate is j's column
  have hw1 : d.window j (1 : Fin 2) = (j 1).val := by
    have hk : (1 : Fin 2) ∈ d.sKept := by rw [hsk]; exact List.mem_singleton.mpr rfl
    unfold ScatterDims.window
    rw [dif_pos hk, getElem_of_eq_singleton huw]
  have hs1 : d.start j idx (1 : Fin 2) = 0 := by
    unfold ScatterDims.start
    rw [dif_neg (by rw [hsd]; simp)]
  unfold ScatterDims.resultIdx? at h
  split at h
  · rename_i hall
    have hi := Option.some.inj h
    subst hi
    have h0 := hall (0 : Fin 2)
    rw [hs0, hw0] at h0
    constructor
    · show _ = (((d.start j idx (0 : Fin 2) + d.window j (0 : Fin 2)).toNat : Nat) : Int)
      rw [hs0, hw0]
      omega
    · show _ = (d.start j idx (1 : Fin 2) + d.window j (1 : Fin 2)).toNat
      rw [hs1, hw1]
      omega
  · exact absurd h (by simp)

/-! ## In-range words -/

/-- A word that reads non-negative as a signed number is left alone by the wrap "if a < 0 then a + N else a". -/
theorem wrap_of_nonneg (a : BitVec 32) (Nw : BitVec 32) (h : 0 ≤ a.toInt) :
    Scalar.select (IntOp.cmpi .slt a 0#32) (IntOp.addi a Nw) a = a := by
  have hs : a.slt 0#32 = false := by
    simp only [BitVec.slt, BitVec.toInt_zero]
    exact decide_eq_false (by omega)
  have hc : IntOp.cmpi .slt a 0#32 = 0#1 := by
    unfold IntOp.cmpi
    show BitVec.ofBool (a.slt 0#32) = 0#1
    rw [hs]; rfl
  unfold Scalar.select
  rw [hc, if_neg (by decide)]

/-- A word whose signed value is k < N is its own clamp into [0, N - 1]. -/
theorem clamp_of_inrange (a : BitVec 32) (N k : Nat) (hk : a.toInt = (k : Int)) (hkN : k < N) : min a.toInt.toNat (N - 1) = k := by
  rw [hk, Int.toNat_natCast]; omega

/-! ## The two constants -/

/-- The single-precision patterns of zero and of one are the extended reals zero and one. -/
theorem zero_f32 : Ideal.ofBits .f32 0x00000000#32 = 0 := Ideal.ofBits_zero_f32
theorem one_f32 : Ideal.ofBits .f32 0x3F800000#32 = 1 := Ideal.ofBits_one_f32

end Cert.LibGS

end
-- ==== Proof.LibGS3.lean ====
/-
  General facts about the host's gather and accumulating scatter along the LAST axis of a rank-3 array (what
  x[..., idx] and x.at[..., idx].add(u) lower to): the gather reads, at (b, s, p), the operand at (b, s, clamp of the
  p-th start index); the accumulating scatter's result at (b, s, j) is the operand there plus the sum, over the update
  columns e whose start index reads j, of the update at (b, s, e) (an update whose start index is outside the axis lands
  nowhere).
-/
import proofs.«430660_j16733192585808_3_alg».proof.Proof.LibGS

noncomputable section

namespace Cert.LibGS3

open Idealize.ShloMosaic Idealize.ShloMosaic.ValueIdx
open scoped BigOperators

/-! ## Lists -/

/-- Equal lists have equal entries at equal positions. -/
theorem getElem_of_eq_list {α : Type} {l l' : List α} (h : l = l') {k k' : Nat} (hkk : k = k') (hk : k < l.length)
    (hk' : k' < l'.length) : l[k] = l'[k'] := by
  subst h; subst hkk; rfl

/-! ## The column gather -/

/-- The column gather read at (b, s, p): for a [B, S, N] operand and an [n, 1] column of start indices (the result's axes
    0 and 1 the offset axes, the operand's axis 2 collapsed and named by the start index map, the index vector on axis 1),
    the operand's entry at (b, s) in the column that position p's start index names, read signed and clamped into [0, N - 1]. -/
theorem gather_cols {α : Type} {B S N n w : Nat} (d : GatherDims ⟨3, ![B, S, N]⟩ ⟨2, ![n, 1]⟩ ⟨3, ![B, S, n]⟩)
    (hoff : d.offsetDims = [0, 1]) (hcoll : d.collapsedSliceDims = [2]) (hob : d.operandBatchingDims = [])
    (hsim : d.startIndexMap = [2]) (hivd : d.indexVectorDim = 1)
    (x : (⟨3, ![B, S, N]⟩ : Shape).Idx → α) (idx : IVec ⟨2, ![n, 1]⟩ w) (b : Fin B) (s : Fin S) (p : Fin n) (hN : 0 < N) :
    Host.gather d x idx (ix3 b s p)
      = x (ix3 b s (⟨min (idx (ix2 p (0 : Fin 1))).toInt.toNat (N - 1), by omega⟩ : Fin N)) := by
  have hb : ∀ a : Fin 3, a ∉ d.operandBatchingDims := by intro a; rw [hob]; exact List.not_mem_nil
  have hbd : d.batchDims = [2] := by
    show Shape.kept _ d.offsetDims = [2]
    rw [hoff]; rfl
  have hsk : d.sKept = [0, 1] := by
    show Shape.kept _ (d.collapsedSliceDims ++ d.operandBatchingDims) = [0, 1]
    rw [hcoll, hob]; rfl
  have hm0 : (0 : Fin 3) ∉ d.startIndexMap := by rw [hsim]; simp
  have hm1 : (1 : Fin 3) ∉ d.startIndexMap := by rw [hsim]; simp
  -- axes 0 and 1: no start, the result's own coordinate
  have h0 : (d.operandIdx (ix3 b s p) idx (0 : Fin 3)).val = b.val := by
    have hk : (0 : Fin 3) ∈ d.sKept := by rw [hsk]; simp
    simp only [GatherDims.operandIdx, GatherDims.batchCoord_eq_zero _ _ _ (hb _), Nat.add_zero, GatherDims.start, dif_neg hm0,
      Nat.zero_add]
    unfold GatherDims.offCoord
    rw [dif_pos hk, getElem_of_eq_list hoff (k' := 0) (by rw [hsk]; rfl) _ (by simp)]
    rfl
  have h1 : (d.operandIdx (ix3 b s p) idx (1 : Fin 3)).val = s.val := by
    have hk : (1 : Fin 3) ∈ d.sKept := by rw [hsk]; simp
    simp only [GatherDims.operandIdx, GatherDims.batchCoord_eq_zero _ _ _ (hb _), Nat.add_zero, GatherDims.start, dif_neg hm1,
      Nat.zero_add]
    unfold GatherDims.offCoord
    rw [dif_pos hk, getElem_of_eq_list hoff (k' := 1) (by rw [hsk]; rfl) _ (by simp)]
    rfl
  -- axis 2: the start index of position p, read signed and clamped
  have h2 : (d.operandIdx (ix3 b s p) idx (2 : Fin 3)).val = min (idx (ix2 p (0 : Fin 1))).toInt.toNat (N - 1) := by
    have hk : (2 : Fin 3) ∉ d.sKept := by rw [hsk]; simp
    have hm : (2 : Fin 3) ∈ d.startIndexMap := by rw [hsim]; exact List.mem_singleton.mpr rfl
    have hsl : d.sliceSizes (2 : Fin 3) = 1 := d.slice_collapsed 2 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes (2 : Fin 3)) = min (idx (ix2 p 0)).toInt.toNat (N - 1)
    rw [hsl]
    congr 3
    congr 1
    funext c
    match c with
    | ⟨0, _⟩ =>
      unfold GatherDims.siIdx
      rw [dif_neg (by rw [hivd]; simp)]
      unfold GatherDims.siCoord
      apply Fin.ext
      simp only [Fin.val_cast]
      rw [LibGS.getElem_of_eq_singleton hbd]
      rfl
    | ⟨1, _⟩ =>
      unfold GatherDims.siIdx
      rw [dif_pos (by rw [hivd])]
      apply Fin.ext
      show List.idxOf (2 : Fin 3) d.startIndexMap = 0
      rw [hsim]; simp
  unfold Host.gather
  congr 1
  funext a
  apply Fin.ext
  match a with
  | ⟨0, _⟩ => exact h0
  | ⟨1, _⟩ => exact h1
  | ⟨2, _⟩ => exact h2

/-! ## Where a column scatter lands -/

/-- Where a column scatter lands: for a [B, S, N] operand, an [n, 1] column of scatter indices and [B, S, n] updates (the
    updates' axes 0 and 1 the window axes, the operand's axis 2 inserted and named by the scatter map, the index vector on
    axis 1), update (b', s', e) lands on (b, s, j) exactly when b' = b, s' = s and the e-th index, read signed, is j.
    (An index outside [0, N) lands nowhere, and is no j < N either.) -/
theorem scatter_cols_lands_iff {B S N n w : Nat} (d : ScatterDims ⟨3, ![B, S, N]⟩ ⟨2, ![n, 1]⟩ ⟨3, ![B, S, n]⟩)
    (huw : d.updateWindowDims = [0, 1]) (hins : d.insertedWindowDims = [2]) (hsd : d.scatterDimsToOperandDims = [2])
    (hivd : d.indexVectorDim = 1) (idx : IVec ⟨2, ![n, 1]⟩ w)
    (b' : Fin B) (s' : Fin S) (e : Fin n) (b : Fin B) (s : Fin S) (j : Fin N) :
    d.resultIdx? (ix3 b' s' e) idx = some (ix3 b s j)
      ↔ b' = b ∧ s' = s ∧ (idx (ix2 e (0 : Fin 1))).toInt = (j.val : ℤ) := by
  have hsk : d.sKept = [0, 1] := by
    show Shape.kept _ d.insertedWindowDims = [0, 1]
    rw [hins]; rfl
  have hus : d.uScatter = [2] := by
    show Shape.kept _ d.updateWindowDims = [2]
    rw [huw]; rfl
  -- axes 0 and 1: the start is zero, the window coordinate is the update's own coordinate
  have hw0 : d.window (ix3 b' s' e) (0 : Fin 3) = b'.val := by
    have hk : (0 : Fin 3) ∈ d.sKept := by rw [hsk]; simp
    unfold ScatterDims.window
    rw [dif_pos hk, getElem_of_eq_list huw (k' := 0) (by rw [hsk]; rfl) _ (by simp)]
    rfl
  have hw1 : d.window (ix3 b' s' e) (1 : Fin 3) = s'.val := by
    have hk : (1 : Fin 3) ∈ d.sKept := by rw [hsk]; simp
    unfold ScatterDims.window
    rw [dif_pos hk, getElem_of_eq_list huw (k' := 1) (by rw [hsk]; rfl) _ (by simp)]
    rfl
  have hs0 : d.start (ix3 b' s' e) idx (0 : Fin 3) = 0 := by
    unfold ScatterDims.start
    rw [dif_neg (by rw [hsd]; simp)]
  have hs1 : d.start (ix3 b' s' e) idx (1 : Fin 3) = 0 := by
    unfold ScatterDims.start
    rw [dif_neg (by rw [hsd]; simp)]
  -- axis 2: the start is the e-th scatter index, the window coordinate is zero
  have hw2 : d.window (ix3 b' s' e) (2 : Fin 3) = 0 := by
    unfold ScatterDims.window
    rw [dif_neg (by rw [hsk]; simp)]
  have hs2 : d.start (ix3 b' s' e) idx (2 : Fin 3) = (idx (ix2 e (0 : Fin 1))).toInt := by
    have hm : (2 : Fin 3) ∈ d.scatterDimsToOperandDims := by rw [hsd]; exact List.mem_singleton.mpr rfl
    unfold ScatterDims.start
    rw [dif_pos hm]
    congr 2
    funext c
    match c with
    | ⟨0, _⟩ =>
      unfold ScatterDims.siIdx
      rw [dif_neg (by rw [hivd]; simp)]
      unfold ScatterDims.siCoord
      apply Fin.ext
      simp only [Fin.val_cast]
      rw [LibGS.getElem_of_eq_singleton hus]
      rfl
    | ⟨1, _⟩ =>
      unfold ScatterDims.siIdx
      rw [dif_pos (by rw [hivd])]
      apply Fin.ext
      show List.idxOf (2 : Fin 3) d.scatterDimsToOperandDims = 0
      rw [hsd]; simp
  have hbB : (b'.val : ℤ) < (B : ℤ) := by exact_mod_cast b'.isLt
  have hsS : (s'.val : ℤ) < (S : ℤ) := by exact_mod_cast s'.isLt
  have hjN : (j.val : ℤ) < (N : ℤ) := by exact_mod_cast j.isLt
  unfold ScatterDims.resultIdx?
  split
  · rename_i hall
    rw [Option.some.injEq]
    constructor
    · intro h
      have e0 := congrArg Fin.val (congrFun h (0 : Fin 3))
      have e1 := congrArg Fin.val (congrFun h (1 : Fin 3))
      have e2 := congrArg Fin.val (congrFun h (2 : Fin 3))
      have a2 := (hall (2 : Fin 3)).1
      change (d.start (ix3 b' s' e) idx (0 : Fin 3) + d.window (ix3 b' s' e) (0 : Fin 3)).toNat = b.val at e0
      change (d.start (ix3 b' s' e) idx (1 : Fin 3) + d.window (ix3 b' s' e) (1 : Fin 3)).toNat = s.val at e1
      change (d.start (ix3 b' s' e) idx (2 : Fin 3) + d.window (ix3 b' s' e) (2 : Fin 3)).toNat = j.val at e2
      rw [hs0, hw0] at e0
      rw [hs1, hw1] at e1
      rw [hs2, hw2] at e2 a2
      refine ⟨Fin.ext (by omega), Fin.ext (by omega), by omega⟩
    · rintro ⟨rfl, rfl, he⟩
      funext a
      apply Fin.ext
      match a with
      | ⟨0, _⟩ =>
        show (d.start (ix3 b' s' e) idx (0 : Fin 3) + d.window (ix3 b' s' e) (0 : Fin 3)).toNat = b'.val
        rw [hs0, hw0]; omega
      | ⟨1, _⟩ =>
        show (d.start (ix3 b' s' e) idx (1 : Fin 3) + d.window (ix3 b' s' e) (1 : Fin 3)).toNat = s'.val
        rw [hs1, hw1]; omega
      | ⟨2, _⟩ =>
        show (d.start (ix3 b' s' e) idx (2 : Fin 3) + d.window (ix3 b' s' e) (2 : Fin 3)).toNat = j.val
        rw [hs2, hw2, he]; omega
  · rename_i hall
    constructor
    · intro h; exact absurd h (by simp)
    · rintro ⟨rfl, rfl, he⟩
      exfalso
      apply hall
      intro a
      match a with
      | ⟨0, _⟩ =>
        show 0 ≤ d.start (ix3 b' s' e) idx (0 : Fin 3) + d.window (ix3 b' s' e) (0 : Fin 3)
          ∧ d.start (ix3 b' s' e) idx (0 : Fin 3) + d.window (ix3 b' s' e) (0 : Fin 3) < (B : ℤ)
        rw [hs0, hw0]; omega
      | ⟨1, _⟩ =>
        show 0 ≤ d.start (ix3 b' s' e) idx (1 : Fin 3) + d.window (ix3 b' s' e) (1 : Fin 3)
          ∧ d.start (ix3 b' s' e) idx (1 : Fin 3) + d.window (ix3 b' s' e) (1 : Fin 3) < (S : ℤ)
        rw [hs1, hw1]; omega
      | ⟨2, _⟩ =>
        show 0 ≤ d.start (ix3 b' s' e) idx (2 : Fin 3) + d.window (ix3 b' s' e) (2 : Fin 3)
          ∧ d.start (ix3 b' s' e) idx (2 : Fin 3) + d.window (ix3 b' s' e) (2 : Fin 3) < (N : ℤ)
        rw [hs2, hw2, he]; omega

/-! ## The accumulating column scatter -/

/-- The accumulating column scatter read at (b, s, j): for a [B, S, N] operand, an [n, 1] column of scatter indices and
    [B, S, n] updates (the updates' axes 0 and 1 the window axes, the operand's axis 2 inserted and named by the scatter
    map, the index vector on axis 1), the operand's entry plus the updates of the columns whose index reads j. -/
theorem scatterAdd_cols_apply {B S N n w : Nat} {φ : FTy} (d : ScatterDims ⟨3, ![B, S, N]⟩ ⟨2, ![n, 1]⟩ ⟨3, ![B, S, n]⟩)
    (huw : d.updateWindowDims = [0, 1]) (hins : d.insertedWindowDims = [2]) (hsd : d.scatterDimsToOperandDims = [2])
    (hivd : d.indexVectorDim = 1)
    (x : FVec Ideal ⟨3, ![B, S, N]⟩ φ) (idx : IVec ⟨2, ![n, 1]⟩ w) (upd : FVec Ideal ⟨3, ![B, S, n]⟩ φ)
    (b : Fin B) (s : Fin S) (j : Fin N) :
    Host.scatterAdd (F := Ideal) d x idx upd (ix3 b s j)
      = x (ix3 b s j) + ∑ e : Fin n, if (idx (ix2 e (0 : Fin 1))).toInt = (j.val : ℤ) then upd (ix3 b s e) else 0 := by
  rw [LibGS.scatterAdd_apply]
  congr 1
  -- the updates landing on (b, s, j) are the (b, s, e) with the e-th index reading j: re-index the sum by e
  rw [← Finset.sum_filter]
  symm
  refine Finset.sum_bij (fun e _ => ix3 b s e) ?_ ?_ ?_ ?_
  · intro e he
    rw [Finset.mem_filter] at he ⊢
    exact ⟨Finset.mem_univ _, (scatter_cols_lands_iff d huw hins hsd hivd idx b s e b s j).mpr ⟨rfl, rfl, he.2⟩⟩
  · intro e₁ _ e₂ _ h
    exact congrFun h (2 : Fin 3)
  · intro j' hj'
    obtain ⟨b', s', e, rfl⟩ : ∃ b' s' e, j' = ix3 b' s' e := ⟨_, _, _, eq_ix3 j'⟩
    rw [Finset.mem_filter] at hj'
    obtain ⟨rfl, rfl, he⟩ := (scatter_cols_lands_iff d huw hins hsd hivd idx b' s' e b s j).mp hj'.2
    exact ⟨e, Finset.mem_filter.mpr ⟨Finset.mem_univ _, he⟩, rfl⟩
  · intro e _
    rfl

end Cert.LibGS3

end
-- ==== Proof.RefAt.lean ====
/-
  The reference's result array, read index by index at the ideal values, is the specification's output row.
-/
import proofs.«430660_j16733192585808_3_alg».proof.Proof.Gen.ReferenceIdeal.Read
import proofs.«430660_j16733192585808_3_alg».proof.Proof.Spec
import proofs.«430660_j16733192585808_3_alg».proof.Proof.Consts
import proofs.«430660_j16733192585808_3_alg».proof.Proof.LibGS
import proofs.«430660_j16733192585808_3_alg».proof.Proof.LibGS3

noncomputable section

namespace Cert.RefAt

open Idealize.ShloMosaic Idealize.ShloMosaic.ValueIdx Cert.Spec
open Cert.ReferenceIdeal Cert.ReferenceIdeal.Gen

open Cert.ReferenceIdeal.Read
open scoped BigOperators

/-- A finite sum of reals, read as an extended real, is the sum of the terms read as extended reals. -/
theorem coe_sum {ι : Type} (S : Finset ι) (f : ι → ℝ) :
    ((∑ k ∈ S, f k : ℝ) : EReal) = ∑ k ∈ S, ((f k : ℝ) : EReal) := by
  classical
  refine Finset.induction_on S (by simp) ?_
  intro a S ha ih
  rw [Finset.sum_insert ha, Finset.sum_insert ha, EReal.coe_add, ih]

variable (A : RealArgs) (x0 : FVec Ideal SX .f32) (x1 x2 : FVec Ideal SV .f32) (x3 : FVec Ideal SW .f32)
    (x4 : FVec Ideal SV .f32) (x5 : IVec SP 32) (x6 : IVec SV 32)

/-- The row sum of the input at (b, s) is the real row sum. -/
theorem rowsum_at (h : Agrees A x0 x1 x2 x3 x4 x5 x6) (b : Fin 8) (s : Fin 4096) :
    val_main_v0 (F := Ideal) x0 (ix2 b s) = ((∑ k, A.xr b s k : ℝ) : EReal) := by
  rw [val_main_v0_apply, val_main_cst_apply, Ideal.ofBits_def, Consts.ofBits_zero, coe_sum]
  rw [EReal.coe_zero, zero_add]
  refine Finset.sum_congr rfl fun k _ => ?_
  rw [← h.hx b s k]
  exact congrArg x0 (funext fun a => Fin.ext (by match a with | ⟨0, _⟩ => rfl | ⟨1, _⟩ => rfl | ⟨2, _⟩ => rfl))

/-- The row mean: the reference's quotient by 1024 at (b, s) is the mean of the real row. -/
theorem mean_at (h : Agrees A x0 x1 x2 x3 x4 x5 x6) (b : Fin 8) (s : Fin 4096) :
    val_main_v3 (F := Ideal) x0 (ix3 b s (0 : Fin 1)) = ((mean (A.xr b s) : ℝ) : EReal) := by
  have e1 : idx_main_v1 (ix3 b s (0 : Fin 1)) = ix2 b s :=
    funext fun a => Fin.ext (by match a with | ⟨0, _⟩ => rfl | ⟨1, _⟩ => rfl)
  rw [val_main_v3_apply, val_main_v1_apply, e1, rowsum_at A x0 x1 x2 x3 x4 x5 x6 h, val_main_v2_apply,
    val_main_cst_0_apply, Ideal.ofBits_def, Consts.ofBits_1024, Ideal.hostDivf_def,
    Ideal.div_coe (by norm_num : (1024 : ℝ) ≠ 0), ← EReal.coe_mul]
  unfold mean
  rw [mul_one_div]

/-- The deviation from the row mean at (b, s, k), as the stage feeding the variance states it. -/
theorem dev_at (h : Agrees A x0 x1 x2 x3 x4 x5 x6) (b : Fin 8) (s : Fin 4096) (k : Fin 1024) :
    val_main_v5 (F := Ideal) x0 (ix3 b s k) = ((A.xr b s k - mean (A.xr b s) : ℝ) : EReal) := by
  have e4 : idx_main_v4 (ix3 b s k) = ix3 b s (0 : Fin 1) :=
    funext fun a => Fin.ext (by match a with | ⟨0, _⟩ => rfl | ⟨1, _⟩ => rfl | ⟨2, _⟩ => rfl)
  rw [val_main_v5_apply, val_main_v4_apply, e4, mean_at A x0 x1 x2 x3 x4 x5 x6 h, h.hx, Ideal.subf_def, ← EReal.coe_sub]

/-- The same deviation, as the stage feeding the normalisation states it. -/
theorem dev_at' (h : Agrees A x0 x1 x2 x3 x4 x5 x6) (b : Fin 8) (s : Fin 4096) (k : Fin 1024) :
    val_main_v12 (F := Ideal) x0 (ix3 b s k) = ((A.xr b s k - mean (A.xr b s) : ℝ) : EReal) := by
  have e11 : idx_main_v11 (ix3 b s k) = ix3 b s (0 : Fin 1) :=
    funext fun a => Fin.ext (by match a with | ⟨0, _⟩ => rfl | ⟨1, _⟩ => rfl | ⟨2, _⟩ => rfl)
  rw [val_main_v12_apply, val_main_v11_apply, e11, mean_at A x0 x1 x2 x3 x4 x5 x6 h, h.hx, Ideal.subf_def, ← EReal.coe_sub]

/-- The row variance: the mean of the squared deviations. -/
theorem var_at (h : Agrees A x0 x1 x2 x3 x4 x5 x6) (b : Fin 8) (s : Fin 4096) :
    val_main_v10 (F := Ideal) x0 (ix3 b s (0 : Fin 1)) = ((var (A.xr b s) : ℝ) : EReal) := by
  have e8 : idx_main_v8 (ix3 b s (0 : Fin 1)) = ix2 b s :=
    funext fun a => Fin.ext (by match a with | ⟨0, _⟩ => rfl | ⟨1, _⟩ => rfl)
  have hs : (∑ k : Fin 1024, val_main_v6 (F := Ideal) x0 (idx_main_v7 (ix2 b s) k))
      = ((∑ k, (A.xr b s k - mean (A.xr b s)) * (A.xr b s k - mean (A.xr b s)) : ℝ) : EReal) := by
    rw [coe_sum]
    refine Finset.sum_congr rfl fun k _ => ?_
    have e7 : idx_main_v7 (ix2 b s) k = ix3 b s k :=
      funext fun a => Fin.ext (by match a with | ⟨0, _⟩ => rfl | ⟨1, _⟩ => rfl | ⟨2, _⟩ => rfl)
    rw [e7, val_main_v6_apply, dev_at A x0 x1 x2 x3 x4 x5 x6 h, Ideal.mulf_def, ← EReal.coe_mul]
  rw [val_main_v10_apply, val_main_v8_apply, e8, val_main_v7_apply, hs, val_main_cst_1_apply, Ideal.ofBits_def,
    Consts.ofBits_zero, EReal.coe_zero, zero_add, val_main_v9_apply, val_main_cst_2_apply, Ideal.ofBits_def,
    Consts.ofBits_1024, Ideal.hostDivf_def, Ideal.div_coe (by norm_num : (1024 : ℝ) ≠ 0), ← EReal.coe_mul]
  unfold var
  rw [mul_one_div]

theorem var_nonneg (x : Row) : 0 ≤ var x := by
  unfold var
  exact div_nonneg (Finset.sum_nonneg fun k _ => mul_self_nonneg _) (by norm_num)

/-- The reciprocal root of variance plus epsilon: the argument is a positive real, so the root is the real one. -/
theorem rstd_at (h : Agrees A x0 x1 x2 x3 x4 x5 x6) (b : Fin 8) (s : Fin 4096) :
    val_main_v15 (F := Ideal) x0 (ix3 b s (0 : Fin 1)) = ((rstd (A.xr b s) : ℝ) : EReal) := by
  have hpos : 0 < var (A.xr b s) + epsR := add_pos_of_nonneg_of_pos (var_nonneg _) epsR_pos
  rw [val_main_v15_apply, val_main_v14_apply, var_at A x0 x1 x2 x3 x4 x5 x6 h, val_main_v13_apply, val_main_cst_3_apply,
    Ideal.ofBits_def, Consts.ofBits_eps, Ideal.addf_def, ← EReal.coe_add, Ideal.hostUnary_rsqrt_def, Ideal.rsqrt_coe,
    if_neg (not_lt.mpr hpos.le), if_neg hpos.ne']
  rfl

/-- The normalised, scaled and shifted row at (b, s, d). -/
theorem normed_at (h : Agrees A x0 x1 x2 x3 x4 x5 x6) (b : Fin 8) (s : Fin 4096) (d : Fin 1024) :
    val_main_v23 (F := Ideal) x0 x1 x2 (ix3 b s d) = ((normed (A.xr b s) A.lnw A.lnb d : ℝ) : EReal) := by
  have e16 : idx_main_v16 (ix3 b s d) = ix3 b s (0 : Fin 1) :=
    funext fun a => Fin.ext (by match a with | ⟨0, _⟩ => rfl | ⟨1, _⟩ => rfl | ⟨2, _⟩ => rfl)
  have e19 : idx_main_v18 (idx_main_v19 (ix3 b s d)) = ix1 d :=
    funext fun a => Fin.ext (by match a with | ⟨0, _⟩ => rfl)
  have e22 : idx_main_v21 (idx_main_v22 (ix3 b s d)) = ix1 d :=
    funext fun a => Fin.ext (by match a with | ⟨0, _⟩ => rfl)
  rw [val_main_v23_apply, val_main_v20_apply, val_main_v17_apply, dev_at' A x0 x1 x2 x3 x4 x5 x6 h, val_main_v16_apply, e16,
    rstd_at A x0 x1 x2 x3 x4 x5 x6 h, val_main_v19_apply, val_main_v18_apply, e19, h.hlnw, val_main_v22_apply, val_main_v21_apply, e22,
    h.hlnb, Ideal.mulf_def, Ideal.mulf_def, Ideal.addf_def, ← EReal.coe_mul, ← EReal.coe_mul, ← EReal.coe_add]
  rfl

/-- A channel number below 1024, as a 32-bit word, reads as itself when read signed. -/
theorem toInt_ofNat_small (n : Nat) (hn : n < 1024) : (BitVec.ofNat 32 n).toInt = (n : Int) := by
  rw [BitVec.toInt_eq_toNat_cond, BitVec.toNat_ofNat, Nat.mod_eq_of_lt (by omega), if_pos (by omega)]

/-- The gather's start index of position p, after the reference's wrap of negative words, is the word of channel s3 p. -/
theorem s3_word (h : Agrees A x0 x1 x2 x3 x4 x5 x6) (p : Fin 512) :
    val_main_v29 (F := Ideal) x5 (ix2 p (0 : Fin 1)) = BitVec.ofNat 32 (A.s3 p).val := by
  have e : idx_main_v29 (ix2 p (0 : Fin 1)) = ix1 p :=
    funext fun a => Fin.ext (by match a with | ⟨0, _⟩ => rfl)
  rw [val_main_v29_apply, e, val_main_v28_apply, val_main_v25_apply, val_main_v27_apply, val_main_v24_apply,
    val_main_c_apply, val_main_v26_apply, val_main_c_4_apply, h.hs3]
  exact LibGS.wrap_of_nonneg _ _ (by rw [toInt_ofNat_small _ (A.s3 p).isLt]; exact Int.natCast_nonneg _)

/-- The gathered array at (b, s, p) is the normalised row at channel s3 p. -/
theorem gathered_at (h : Agrees A x0 x1 x2 x3 x4 x5 x6) (b : Fin 8) (s : Fin 4096) (p : Fin 512) :
    val_main_v30 (F := Ideal) x0 x1 x2 x5 (ix3 b s p) = ((normed (A.xr b s) A.lnw A.lnb (A.s3 p) : ℝ) : EReal) := by
  have hc : min (val_main_v29 (F := Ideal) x5 (ix2 p (0 : Fin 1))).toInt.toNat (1024 - 1) = (A.s3 p).val :=
    LibGS.clamp_of_inrange _ 1024 _
      (by rw [s3_word A x0 x1 x2 x3 x4 x5 x6 h, toInt_ofNat_small _ (A.s3 p).isLt]) (A.s3 p).isLt
  unfold val_main_v30
  rw [LibGS3.gather_cols _ rfl rfl rfl rfl rfl _ _ b s p (by decide), ← normed_at A x0 x1 x2 x3 x4 x5 x6 h b s (A.s3 p)]
  exact congrArg (val_main_v23 (F := Ideal) x0 x1 x2) (congrArg (ix3 b s) (Fin.ext hc))

/-- Channel e of the small linear layer at (b, s). -/
theorem lin_at (h : Agrees A x0 x1 x2 x3 x4 x5 x6) (b : Fin 8) (s : Fin 4096) (e : Fin 1024) :
    val_main_v34 (F := Ideal) x0 x1 x2 x3 x4 x5 (ix3 b s e)
      = ((lin (A.xr b s) A.lnw A.lnb A.bb A.W A.s3 e : ℝ) : EReal) := by
  have e33 : idx_main_v32 (idx_main_v33 (ix3 b s e)) = ix1 e :=
    funext fun a => Fin.ext (by match a with | ⟨0, _⟩ => rfl)
  rw [val_main_v34_apply, val_main_v31_apply, val_main_v33_apply, val_main_v32_apply, e33, h.hbb, Ideal.addf_def]
  unfold lin
  rw [EReal.coe_add, coe_sum]
  congr 1
  refine Finset.sum_congr rfl fun p _ => ?_
  have el : lidx_main_v31 (ix3 b s e) p = ix3 b s p :=
    funext fun a => Fin.ext (by match a with | ⟨0, _⟩ => rfl | ⟨1, _⟩ => rfl | ⟨2, _⟩ => rfl)
  have er : ridx_main_v31 (ix3 b s e) p = ix2 e p :=
    funext fun a => Fin.ext (by match a with | ⟨0, _⟩ => rfl | ⟨1, _⟩ => rfl)
  rw [el, er, gathered_at A x0 x1 x2 x3 x4 x5 x6 h, h.hW, EReal.coe_mul]

/-- The scatter's index of update e, after the reference's wrap of negative words, is the word s5 e. -/
theorem s5_word (h : Agrees A x0 x1 x2 x3 x4 x5 x6) (e : Fin 1024) :
    val_main_v40 (F := Ideal) x6 (ix2 e (0 : Fin 1)) = A.s5 e := by
  have e0 : idx_main_v40 (ix2 e (0 : Fin 1)) = ix1 e :=
    funext fun a => Fin.ext (by match a with | ⟨0, _⟩ => rfl)
  rw [val_main_v40_apply, e0, val_main_v39_apply, val_main_v36_apply, val_main_v38_apply, val_main_v35_apply,
    val_main_c_5_apply, val_main_v37_apply, val_main_c_6_apply, h.hs5]
  exact LibGS.wrap_of_nonneg _ _ (h.hs5nn e)

/-- On arguments that are the real witnesses, the reference's last stage is the common result array. -/
theorem ref_eq (A : RealArgs) (x0 : FVec Ideal SX .f32) (x1 x2 : FVec Ideal SV .f32) (x3 : FVec Ideal SW .f32)
    (x4 : FVec Ideal SV .f32) (x5 : IVec SP 32) (x6 : IVec SV 32) (h : Agrees A x0 x1 x2 x3 x4 x5 x6) :
    Cert.ReferenceIdeal.Read.val_main_v41 (F := Ideal) x0 x1 x2 x3 x4 x5 x6 = Gfun A := by
  funext i
  obtain ⟨b, s, j, rfl⟩ : ∃ (b : Fin 8) (s : Fin 4096) (j : Fin 1024), i = ix3 b s j := ⟨i 0, i 1, i 2, eq_ix3 i⟩
  rw [Gfun_apply]
  unfold val_main_v41
  rw [LibGS3.scatterAdd_cols_apply _ rfl rfl rfl rfl, h.hx]
  unfold outRow
  rw [EReal.coe_add, coe_sum]
  congr 1
  refine Finset.sum_congr rfl fun e _ => ?_
  rw [s5_word A x0 x1 x2 x3 x4 x5 x6 h, lin_at A x0 x1 x2 x3 x4 x5 x6 h]
  by_cases hh : (A.s5 e).toInt = (j.val : ℤ)
  · rw [if_pos hh, if_pos (show hit A.s5 e j from hh)]
  · rw [if_neg hh, if_neg (show ¬ hit A.s5 e j from hh), EReal.coe_zero]

end Cert.RefAt

end
-- ==== Proof.KerHost.lean ====
/-
  What the kernel's three input windows hold when the region is entered: the input re-laid as 32768 rows, the folded
  matrix, and the folded bias row, each read at an index as a real number.

  Each array is first written as the pure term its operations compute from the argument arrays; the term is then read
  at an index, operation by operation: a cast keeps the row-major position, a broadcast drops coordinates, a transpose
  swaps them, a contraction is a finite sum over the contracted coordinate, a compare-and-convert is an indicator, and
  narrowing changes nothing over the extended reals. With the arguments real, every entry is the coercion of a real.
-/
import proofs.«430660_j16733192585808_3_alg».proof.Proof.Gen.KernelIdeal.Frame
import proofs.«430660_j16733192585808_3_alg».proof.Proof.Spec
import proofs.«430660_j16733192585808_3_alg».proof.Proof.Consts
import Idealize.ShloMosaic.Lib.Pipeline.Value
import Idealize.ShloMosaic.Lib.ValueIdx
import Idealize.ShloMosaic.Lib.IdealHost
import Idealize.ShloMosaic.PureOps.Ideal.Laws

noncomputable section

namespace Cert.KerHost

open Idealize.ShloMosaic Idealize.ShloMosaic.ValueIdx Idealize.SL.Sem Cert.Spec
open Cert.KernelIdeal Cert.KernelIdeal.Gen
open scoped BigOperators

variable (m : (ℓ : Loc nD τ sig) → Buf (Elt Ideal) ℓ)

/-- The seven arguments on device c are the witnesses A. -/
abbrev Ag (A : RealArgs) (c : Dev nD) : Prop :=
  Agrees A (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6))

/-! ## The arrays the folding function computes, as functions of the argument arrays -/

/-- Entry (d, p) is 1 when channel d is the p-th gathered channel, else 0: the word d compared with the gather word at p. -/
def gatherHot (x5 : IVec S512 32) : FVec Ideal S1024x512 .f32 :=
  uitofp .f32 (cmpi .eq
    (broadcastInDim S1024x512 ![0, 1] bcast_S1024x1_S1024x512_0_1
      (broadcastInDim S1024x1 ![0] bcast_S1024_S1024x1_0 (iotaInDim S1024 32 0)))
    (broadcastInDim S1024x512 ![0, 1] bcast_S1x512_S1024x512_0_1
      (broadcastInDim S1x512 ![1] bcast_S512_S1x512_1 x5)))

/-- Entry (e, j) is 1 when update e lands on channel j, else 0: the scatter word at e compared with the word j. -/
def scatterHot (x6 : IVec S1024 32) : FVec Ideal S1024x1024 .f32 :=
  uitofp .f32 (cmpi .eq
    (broadcastInDim S1024x1024 ![0, 1] bcast_S1024x1_S1024x1024_0_1
      (broadcastInDim S1024x1 ![0] bcast_S1024_S1024x1_0 x6))
    (broadcastInDim S1024x1024 ![0, 1] bcast_S1x1024_S1024x1024_0_1
      (broadcastInDim S1x1024 ![1] bcast_S1024_S1x1024_1 (iotaInDim S1024 32 0))))

/-- The gather folded into the weights: (d, e) ↦ sum over p of gatherHot (d, p) * W (e, p). -/
def foldG (x3 : FVec Ideal S1024x512 .f32) (x5 : IVec S512 32) : FVec Ideal S1024x1024 .f32 :=
  Host.dotGeneral dot_S1024x512_S512x1024_S1024x1024_1_0_0_1_n_n (some .fp32) (gatherHot x5)
    (transpose S512x1024 [1, 0] x3 transposes_S1024x512_S512x1024_1_0)

/-- Gather, weights and scatter folded: (d, j) ↦ sum over e of foldG (d, e) * scatterHot (e, j). -/
def foldGS (x3 : FVec Ideal S1024x512 .f32) (x5 : IVec S512 32) (x6 : IVec S1024 32) : FVec Ideal S1024x1024 .f32 :=
  Host.dotGeneral dot_S1024x1024_S1024x1024_S1024x1024_1_0_0_1_n_n (some .fp32) (foldG x3 x5) (scatterHot x6)

/-- The folded matrix: row d of foldGS scaled by the LayerNorm weight of channel d, then narrowed. -/
def matArr (x1 : FVec Ideal S1024 .f32) (x3 : FVec Ideal S1024x512 .f32) (x5 : IVec S512 32) (x6 : IVec S1024 32) :
    FVec Ideal S1024x1024 .bf16 :=
  truncf .bf16 (mulf
    (broadcastInDim S1024x1024 ![0, 1] bcast_S1024x1_S1024x1024_0_1 (broadcastInDim S1024x1 ![0] bcast_S1024_S1024x1_0 x1))
    (foldGS x3 x5 x6)) bitsLt_bf16_f32

/-- The folded bias row: the linear layer's bias scattered, plus the LayerNorm bias through foldGS. -/
def biasArr (x2 : FVec Ideal S1024 .f32) (x3 : FVec Ideal S1024x512 .f32) (x4 : FVec Ideal S1024 .f32) (x5 : IVec S512 32)
    (x6 : IVec S1024 32) : FVec Ideal S1x1024 .f32 :=
  addf
    (Host.dotGeneral dot_S1x1024_S1024x1024_S1x1024_1_0_0_1_n_n (some .fp32)
      (shapeCast S1x1024 x4 shapeCasts_S1024_S1x1024) (scatterHot x6))
    (Host.dotGeneral dot_S1x1024_S1024x1024_S1x1024_1_0_0_1_n_n (some .fp32)
      (shapeCast S1x1024 x2 shapeCasts_S1024_S1x1024) (foldGS x3 x5 x6))

/-! ## Small facts about words and extended reals -/

/-- A finite sum of real numbers, taken in the extended reals, is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Two channel numbers have the same 32-bit word exactly when they are equal. -/
theorem word_eq_iff (a b : Fin 1024) : BitVec.ofNat 32 a.val = BitVec.ofNat 32 b.val ↔ a = b := by
  constructor
  · intro h
    have h2 := congrArg BitVec.toNat h
    rw [BitVec.toNat_ofNat, BitVec.toNat_ofNat] at h2
    apply Fin.ext
    have := a.isLt; have := b.isLt
    omega
  · rintro rfl; rfl

/-- A word that reads non-negative signed equals the word of channel j exactly when its signed value is j. -/
theorem word_eq_iff_toInt (w : BitVec 32) (hw : 0 ≤ w.toInt) (j : Fin 1024) :
    w = BitVec.ofNat 32 j.val ↔ w.toInt = (j.val : ℤ) := by
  have hj := j.isLt
  have hlt := w.isLt
  rw [BitVec.toInt_eq_toNat_cond] at hw ⊢
  constructor
  · intro h
    have h2 := congrArg BitVec.toNat h
    rw [BitVec.toNat_ofNat] at h2
    split_ifs at hw ⊢ <;> omega
  · intro h
    apply BitVec.eq_of_toNat_eq
    rw [BitVec.toNat_ofNat]
    split_ifs at h hw <;> omega

/-- Comparing two words for equality and converting the truth bit to a float gives 1 when they are equal, else 0. -/
theorem eqBit (a b : BitVec 32) :
    (FloatOps.uitofp (F := Ideal) .f32 (IntOp.cmpi .eq a b) : EReal) = (((if a = b then 1 else 0 : ℝ)) : EReal) := by
  rw [Consts.uitofp_bit]
  by_cases hab : a = b
  · subst hab; simp [IntOp.cmpi]
  · have hb : (a == b) = false := by simpa using hab
    simp [IntOp.cmpi, hb, hab]

/-! ## The layout operations read at an index -/

section Layout
variable {α : Type}

theorem col_apply (x : S1024.Idx → α) (d : Fin 1024) (z : Fin 1) :
    broadcastInDim S1024x1 ![0] bcast_S1024_S1024x1_0 x (ix2 d z) = x (ix1 d) :=
  broadcastInDim_apply _ bcast_S1024_S1024x1_0 x (ix2 d z) (ix1 d) (fun a => match a with
    | ⟨0, _⟩ => by show d.val = if (1024 : Nat) = 1 then 0 else d.val; rw [if_neg (by decide)])

theorem colTo512_apply (y : S1024x1.Idx → α) (d : Fin 1024) (p : Fin 512) :
    broadcastInDim S1024x512 ![0, 1] bcast_S1024x1_S1024x512_0_1 y (ix2 d p) = y (ix2 d (0 : Fin 1)) :=
  broadcastInDim_apply _ bcast_S1024x1_S1024x512_0_1 y (ix2 d p) (ix2 d (0 : Fin 1)) (fun a => match a with
    | ⟨0, _⟩ => by show d.val = if (1024 : Nat) = 1 then 0 else d.val; rw [if_neg (by decide)]
    | ⟨1, _⟩ => by show (0 : Nat) = if (1 : Nat) = 1 then 0 else p.val; rw [if_pos rfl])

theorem row512_apply (x : S512.Idx → α) (z : Fin 1) (p : Fin 512) :
    broadcastInDim S1x512 ![1] bcast_S512_S1x512_1 x (ix2 z p) = x (ix1 p) :=
  broadcastInDim_apply _ bcast_S512_S1x512_1 x (ix2 z p) (ix1 p) (fun a => match a with
    | ⟨0, _⟩ => by show p.val = if (512 : Nat) = 1 then 0 else p.val; rw [if_neg (by decide)])

theorem rowTo1024x512_apply (y : S1x512.Idx → α) (d : Fin 1024) (p : Fin 512) :
    broadcastInDim S1024x512 ![0, 1] bcast_S1x512_S1024x512_0_1 y (ix2 d p) = y (ix2 (0 : Fin 1) p) :=
  broadcastInDim_apply _ bcast_S1x512_S1024x512_0_1 y (ix2 d p) (ix2 (0 : Fin 1) p) (fun a => match a with
    | ⟨0, _⟩ => by show (0 : Nat) = if (1 : Nat) = 1 then 0 else d.val; rw [if_pos rfl]
    | ⟨1, _⟩ => by show p.val = if (512 : Nat) = 1 then 0 else p.val; rw [if_neg (by decide)])

theorem colTo1024_apply (y : S1024x1.Idx → α) (d j : Fin 1024) :
    broadcastInDim S1024x1024 ![0, 1] bcast_S1024x1_S1024x1024_0_1 y (ix2 d j) = y (ix2 d (0 : Fin 1)) :=
  broadcastInDim_apply _ bcast_S1024x1_S1024x1024_0_1 y (ix2 d j) (ix2 d (0 : Fin 1)) (fun a => match a with
    | ⟨0, _⟩ => by show d.val = if (1024 : Nat) = 1 then 0 else d.val; rw [if_neg (by decide)]
    | ⟨1, _⟩ => by show (0 : Nat) = if (1 : Nat) = 1 then 0 else j.val; rw [if_pos rfl])

theorem row1024_apply (x : S1024.Idx → α) (z : Fin 1) (j : Fin 1024) :
    broadcastInDim S1x1024 ![1] bcast_S1024_S1x1024_1 x (ix2 z j) = x (ix1 j) :=
  broadcastInDim_apply _ bcast_S1024_S1x1024_1 x (ix2 z j) (ix1 j) (fun a => match a with
    | ⟨0, _⟩ => by show j.val = if (1024 : Nat) = 1 then 0 else j.val; rw [if_neg (by decide)])

theorem rowTo1024x1024_apply (y : S1x1024.Idx → α) (e j : Fin 1024) :
    broadcastInDim S1024x1024 ![0, 1] bcast_S1x1024_S1024x1024_0_1 y (ix2 e j) = y (ix2 (0 : Fin 1) j) :=
  broadcastInDim_apply _ bcast_S1x1024_S1024x1024_0_1 y (ix2 e j) (ix2 (0 : Fin 1) j) (fun a => match a with
    | ⟨0, _⟩ => by show (0 : Nat) = if (1 : Nat) = 1 then 0 else e.val; rw [if_pos rfl]
    | ⟨1, _⟩ => by show j.val = if (1024 : Nat) = 1 then 0 else j.val; rw [if_neg (by decide)])

theorem transposeW_apply (x : S1024x512.Idx → α) (p : Fin 512) (e : Fin 1024) :
    transpose S512x1024 [1, 0] x transposes_S1024x512_S512x1024_1_0 (ix2 p e) = x (ix2 e p) :=
  transpose_apply [1, 0] x transposes_S1024x512_S512x1024_1_0 (ix2 p e) (ix2 e p) (fun b => match b with
    | ⟨0, _⟩ => rfl
    | ⟨1, _⟩ => rfl)

theorem asRow_apply (x : S1024.Idx → α) (j : Fin 1024) :
    shapeCast S1x1024 x shapeCasts_S1024_S1x1024 (ix2 (0 : Fin 1) j) = x (ix1 j) := by
  refine shapeCast_apply x shapeCasts_S1024_S1x1024 (ix2 (0 : Fin 1) j) (ix1 j) ?_
  rw [Shape.rowMajor_val_one, Shape.rowMajor_val_two]
  show j.val = 0 * 1024 + j.val
  omega

end Layout

/-! ## The three contractions read at an index

Each is a plain product of a matrix by a matrix over one contracted axis: the left operand's axis 1 against the right
operand's axis 0. Per dimension record, the four coordinates of the operand indices, then the sum over the contracted
coordinate. -/

theorem lhsG_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhsG_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhsG_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhsG_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The 1024 x 512 by 512 x 1024 product at (d, e). -/
theorem dotG_apply (l : FVec Ideal S1024x512 .f32) (r : FVec Ideal S512x1024 .f32) (d e : Fin 1024) :
    Host.dotGeneral dot_S1024x512_S512x1024_S1024x1024_1_0_0_1_n_n (some .fp32) l r (ix2 d e)
      = ∑ p : Fin 512, l (ix2 d p) * r (ix2 p e) := by
  simp only [Host.dotGeneral]
  rw [Ideal.dotGeneral_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 d e) ((ValueIdx.contrEquiv1 dot_S1024x512_S512x1024_S1024x1024_1_0_0_1_n_n 512 rfl rfl).symm k) = ix2 d k := funext fun a => Fin.ext (by
    match a with
    | ⟨0, _⟩ => exact lhsG_0 _ _
    | ⟨1, _⟩ => exact (lhsG_1 _ _).trans hk)
  have er : dot_S1024x512_S512x1024_S1024x1024_1_0_0_1_n_n.rhsIdx (ix2 d e) ((ValueIdx.contrEquiv1 dot_S1024x512_S512x1024_S1024x1024_1_0_0_1_n_n 512 rfl rfl).symm k) = ix2 k e := funext fun a => Fin.ext (by
    match a with
    | ⟨0, _⟩ => exact (rhsG_0 _ _).trans hk
    | ⟨1, _⟩ => exact rhsG_1 _ _)
  rw [el, er]

theorem lhsS_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhsS_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhsS_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhsS_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The 1024 x 1024 by 1024 x 1024 product at (d, j). -/
theorem dotS_apply (l r : FVec Ideal S1024x1024 .f32) (d j : Fin 1024) :
    Host.dotGeneral dot_S1024x1024_S1024x1024_S1024x1024_1_0_0_1_n_n (some .fp32) l r (ix2 d j)
      = ∑ e : Fin 1024, l (ix2 d e) * r (ix2 e j) := by
  simp only [Host.dotGeneral]
  rw [Ideal.dotGeneral_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 d j) ((ValueIdx.contrEquiv1 dot_S1024x1024_S1024x1024_S1024x1024_1_0_0_1_n_n 1024 rfl rfl).symm k) = ix2 d k := funext fun a => Fin.ext (by
    match a with
    | ⟨0, _⟩ => exact lhsS_0 _ _
    | ⟨1, _⟩ => exact (lhsS_1 _ _).trans hk)
  have er : dot_S1024x1024_S1024x1024_S1024x1024_1_0_0_1_n_n.rhsIdx (ix2 d j) ((ValueIdx.contrEquiv1 dot_S1024x1024_S1024x1024_S1024x1024_1_0_0_1_n_n 1024 rfl rfl).symm k) = ix2 k j := funext fun a => Fin.ext (by
    match a with
    | ⟨0, _⟩ => exact (rhsS_0 _ _).trans hk
    | ⟨1, _⟩ => exact rhsS_1 _ _)
  rw [el, er]

theorem lhsB_0 (i : S1x1024.Idx) (q : dot_S1x1024_S1024x1024_S1x1024_1_0_0_1_n_n.contr.Idx) :
    (dot_S1x1024_S1024x1024_S1x1024_1_0_0_1_n_n.lhsIdx i q 0).val = (i 0).val := by
  unfold DotDims.lhsIdx
  rw [dif_neg (show ¬(0 : Fin S1x1024.rank) ∈ dot_S1x1024_S1024x1024_S1x1024_1_0_0_1_n_n.lhsBatch by decide), dif_pos (show (0 : Fin S1x1024.rank) ∈ dot_S1x1024_S1024x1024_S1x1024_1_0_0_1_n_n.lhsNonContracting by decide)]
  rfl
theorem lhsB_1 (i : S1x1024.Idx) (q : dot_S1x1024_S1024x1024_S1x1024_1_0_0_1_n_n.contr.Idx) :
    (dot_S1x1024_S1024x1024_S1x1024_1_0_0_1_n_n.lhsIdx i q 1).val = (q ⟨0, by decide⟩).val :=
  dot_S1x1024_S1024x1024_S1x1024_1_0_0_1_n_n.lhsIdx_val_of_single rfl i q
theorem rhsB_0 (i : S1x1024.Idx) (q : dot_S1x1024_S1024x1024_S1x1024_1_0_0_1_n_n.contr.Idx) :
    (dot_S1x1024_S1024x1024_S1x1024_1_0_0_1_n_n.rhsIdx i q 0).val = (q ⟨0, by decide⟩).val :=
  dot_S1x1024_S1024x1024_S1x1024_1_0_0_1_n_n.rhsIdx_val_of_single rfl i q
theorem rhsB_1 (i : S1x1024.Idx) (q : dot_S1x1024_S1024x1024_S1x1024_1_0_0_1_n_n.contr.Idx) :
    (dot_S1x1024_S1024x1024_S1x1024_1_0_0_1_n_n.rhsIdx i q 1).val = (i 1).val := by
  unfold DotDims.rhsIdx
  rw [dif_neg (show ¬(1 : Fin S1024x1024.rank) ∈ dot_S1x1024_S1024x1024_S1x1024_1_0_0_1_n_n.rhsBatch by decide), dif_pos (show (1 : Fin S1024x1024.rank) ∈ dot_S1x1024_S1024x1024_S1x1024_1_0_0_1_n_n.rhsNonContracting by decide)]
  rfl

/-- The 1 x 1024 row by 1024 x 1024 product at (0, j). -/
theorem dotB_apply (l : FVec Ideal S1x1024 .f32) (r : FVec Ideal S1024x1024 .f32) (j : Fin 1024) :
    Host.dotGeneral dot_S1x1024_S1024x1024_S1x1024_1_0_0_1_n_n (some .fp32) l r (ix2 (0 : Fin 1) j)
      = ∑ e : Fin 1024, l (ix2 (0 : Fin 1) e) * r (ix2 e j) := by
  simp only [Host.dotGeneral]
  rw [Ideal.dotGeneral_apply, ← Equiv.sum_comp (ValueIdx.contrEquiv1 dot_S1x1024_S1024x1024_S1x1024_1_0_0_1_n_n 1024 rfl rfl).symm]
  refine Finset.sum_congr rfl fun k _ => ?_
  have hk := ValueIdx.contrEquiv1_symm_val dot_S1x1024_S1024x1024_S1x1024_1_0_0_1_n_n 1024 rfl rfl k
  have el : dot_S1x1024_S1024x1024_S1x1024_1_0_0_1_n_n.lhsIdx (ix2 (0 : Fin 1) j) ((ValueIdx.contrEquiv1 dot_S1x1024_S1024x1024_S1x1024_1_0_0_1_n_n 1024 rfl rfl).symm k) = ix2 (0 : Fin 1) k := funext fun a => Fin.ext (by
    match a with
    | ⟨0, _⟩ => exact lhsB_0 _ _
    | ⟨1, _⟩ => exact (lhsB_1 _ _).trans hk)
  have er : dot_S1x1024_S1024x1024_S1x1024_1_0_0_1_n_n.rhsIdx (ix2 (0 : Fin 1) j) ((ValueIdx.contrEquiv1 dot_S1x1024_S1024x1024_S1x1024_1_0_0_1_n_n 1024 rfl rfl).symm k) = ix2 k j := funext fun a => Fin.ext (by
    match a with
    | ⟨0, _⟩ => exact (rhsB_0 _ _).trans hk
    | ⟨1, _⟩ => exact rhsB_1 _ _)
  rw [el, er]

/-! ## The folded arrays as real numbers -/

theorem chan_apply (d : Fin 1024) : iotaInDim S1024 32 0 (ix1 d) = BitVec.ofNat 32 d.val := rfl

theorem eqFloat_apply {s : Shape} (a b : IVec s 32) (i : s.Idx) :
    (uitofp .f32 (cmpi .eq a b) : FVec Ideal s .f32) i = FloatOps.uitofp (F := Ideal) .f32 (IntOp.cmpi .eq (a i) (b i)) := rfl

section Real
variable (A : RealArgs) (x1 x2 x4 : FVec Ideal S1024 .f32) (x3 : FVec Ideal S1024x512 .f32) (x5 : IVec S512 32)
  (x6 : IVec S1024 32)

/-- Entry (d, p) of the gather comparison is the indicator of d = s3 p. -/
theorem gatherHot_real (hs3 : ∀ p : Fin 512, x5 (ix1 p) = BitVec.ofNat 32 (A.s3 p).val) (d : Fin 1024) (p : Fin 512) :
    gatherHot x5 (ix2 d p) = ((oneHot A.s3 d p : ℝ) : EReal) := by
  unfold gatherHot
  rw [eqFloat_apply, colTo512_apply, col_apply, rowTo1024x512_apply, row512_apply, chan_apply, hs3, eqBit]
  unfold oneHot
  by_cases hd : d = A.s3 p
  · rw [if_pos ((word_eq_iff _ _).2 hd), if_pos hd]
  · rw [if_neg (fun h => hd ((word_eq_iff _ _).1 h)), if_neg hd]

/-- Entry (e, j) of the scatter comparison is the indicator of update e landing on channel j. -/
theorem scatterHot_real (hs5 : ∀ e : Fin 1024, x6 (ix1 e) = A.s5 e) (hnn : ∀ e : Fin 1024, 0 ≤ (A.s5 e).toInt)
    (e j : Fin 1024) : scatterHot x6 (ix2 e j) = ((scat A.s5 e j : ℝ) : EReal) := by
  unfold scatterHot
  rw [eqFloat_apply, colTo1024_apply, col_apply, rowTo1024x1024_apply, row1024_apply, chan_apply, hs5, eqBit]
  unfold scat
  by_cases hh : hit A.s5 e j
  · rw [if_pos ((word_eq_iff_toInt _ (hnn e) j).2 hh), if_pos hh]
  · rw [if_neg (fun h => hh ((word_eq_iff_toInt _ (hnn e) j).1 h)), if_neg hh]

theorem foldG_real (hW : ∀ (e : Fin 1024) (p : Fin 512), x3 (ix2 e p) = ((A.W e p : ℝ) : EReal))
    (hs3 : ∀ p : Fin 512, x5 (ix1 p) = BitVec.ofNat 32 (A.s3 p).val) (d e : Fin 1024) :
    foldG x3 x5 (ix2 d e) = ((kM A.W A.s3 d e : ℝ) : EReal) := by
  unfold foldG kM
  rw [dotG_apply, ← coe_sum]
  refine Finset.sum_congr rfl fun p _ => ?_
  rw [transposeW_apply, gatherHot_real A x5 hs3, hW, EReal.coe_mul]

theorem foldGS_real (hW : ∀ (e : Fin 1024) (p : Fin 512), x3 (ix2 e p) = ((A.W e p : ℝ) : EReal))
    (hs3 : ∀ p : Fin 512, x5 (ix1 p) = BitVec.ofNat 32 (A.s3 p).val)
    (hs5 : ∀ e : Fin 1024, x6 (ix1 e) = A.s5 e) (hnn : ∀ e : Fin 1024, 0 ≤ (A.s5 e).toInt) (d j : Fin 1024) :
    foldGS x3 x5 x6 (ix2 d j) = ((kM2 A.W A.s3 A.s5 d j : ℝ) : EReal) := by
  unfold foldGS kM2
  rw [dotS_apply, ← coe_sum]
  refine Finset.sum_congr rfl fun e _ => ?_
  rw [foldG_real A x3 x5 hW hs3, scatterHot_real A x6 hs5 hnn, EReal.coe_mul]

theorem matArr_real (hlnw : ∀ d : Fin 1024, x1 (ix1 d) = ((A.lnw d : ℝ) : EReal))
    (hW : ∀ (e : Fin 1024) (p : Fin 512), x3 (ix2 e p) = ((A.W e p : ℝ) : EReal))
    (hs3 : ∀ p : Fin 512, x5 (ix1 p) = BitVec.ofNat 32 (A.s3 p).val)
    (hs5 : ∀ e : Fin 1024, x6 (ix1 e) = A.s5 e) (hnn : ∀ e : Fin 1024, 0 ≤ (A.s5 e).toInt) (d j : Fin 1024) :
    matArr x1 x3 x5 x6 (ix2 d j) = ((kMat A.lnw A.W A.s3 A.s5 d j : ℝ) : EReal) := by
  unfold matArr kMat
  rw [truncf_apply, mulf_apply, colTo1024_apply, col_apply, hlnw, foldGS_real A x3 x5 x6 hW hs3 hs5 hnn, EReal.coe_mul]

theorem biasArr_real (hlnb : ∀ d : Fin 1024, x2 (ix1 d) = ((A.lnb d : ℝ) : EReal))
    (hW : ∀ (e : Fin 1024) (p : Fin 512), x3 (ix2 e p) = ((A.W e p : ℝ) : EReal))
    (hbb : ∀ e : Fin 1024, x4 (ix1 e) = ((A.bb e : ℝ) : EReal))
    (hs3 : ∀ p : Fin 512, x5 (ix1 p) = BitVec.ofNat 32 (A.s3 p).val)
    (hs5 : ∀ e : Fin 1024, x6 (ix1 e) = A.s5 e) (hnn : ∀ e : Fin 1024, 0 ≤ (A.s5 e).toInt) (j : Fin 1024) :
    biasArr x2 x3 x4 x5 x6 (ix2 (0 : Fin 1) j) = ((kBias A.lnb A.bb A.W A.s3 A.s5 j : ℝ) : EReal) := by
  unfold biasArr kBias
  rw [addf_apply, dotB_apply, dotB_apply, EReal.coe_add, ← coe_sum, ← coe_sum]
  congr 1
  · refine Finset.sum_congr rfl fun e _ => ?_
    rw [asRow_apply, hbb, scatterHot_real A x6 hs5 hnn, EReal.coe_mul]
  · refine Finset.sum_congr rfl fun d _ => ?_
    rw [asRow_apply, hlnb, foldGS_real A x3 x5 x6 hW hs3 hs5 hnn, EReal.coe_mul]

end Real

/-! ## The windows' arrays as the operations' terms -/

/-- The re-laid input is the input cast to 32768 rows. -/
theorem e_x (c : Dev nD) : (V m c main_v1 : S32768x1024.Idx → EReal)
    = shapeCast S32768x1024 (m ((c.tc : Thread nD τ).loc main_arg0) : S8x4096x1024.Idx → EReal)
        shapeCasts_S8x4096x1024_S32768x1024 := by
  dsimp only [Gen.V, Gen.V0]
  simp only [Gen.hostOps0, Gen.hostOps0_1, List.flatten_cons, List.flatten_nil, List.append_nil, List.cons_append,
    List.nil_append]
  after_results
  rfl

set_option maxHeartbeats 1000000 in
/-- The matrix window's array is matArr of the arguments. -/
theorem e_mat (c : Dev nD) : (V m c main_v0_0 : S1024x1024.Idx → EReal)
    = matArr (m ((c.tc : Thread nD τ).loc main_arg1)) (m ((c.tc : Thread nD τ).loc main_arg3))
        (m ((c.tc : Thread nD τ).loc main_arg5)) (m ((c.tc : Thread nD τ).loc main_arg6)) := by
  dsimp only [Gen.V, Gen.V0]
  simp only [Gen.hostOps0, Gen.hostOps0_1, List.flatten_cons, List.flatten_nil, List.append_nil, List.cons_append,
    List.nil_append]
  after_results
  rfl

set_option maxHeartbeats 4000000 in
/-- The bias window's array is biasArr of the arguments. -/
theorem e_bias (c : Dev nD) : (V m c main_v0_1 : S1x1024.Idx → EReal)
    = biasArr (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) := by
  dsimp only [Gen.V, Gen.V0]
  simp only [Gen.hostOps0, Gen.hostOps0_1, List.flatten_cons, List.flatten_nil, List.append_nil, List.cons_append,
    List.nil_append]
  after_results_simp
  rfl

/-! ## The three windows -/

/-- Row R of the re-laid input is row (R / 4096, R % 4096) of the input. -/
theorem V_x (A : RealArgs) (c : Dev nD) (h : Ag m A c) (R : Fin 32768) (k : Fin 1024) :
    (V m c main_v1 : S32768x1024.Idx → EReal) (ix2 R k)
      = ((A.xr ⟨R.val / 4096, by omega⟩ ⟨R.val % 4096, by omega⟩ k : ℝ) : EReal) := by
  rw [e_x, shapeCast_apply _ _ (ix2 R k) (ix3 (⟨R.val / 4096, by omega⟩ : Fin 8) (⟨R.val % 4096, by omega⟩ : Fin 4096) k)]
  · exact h.hx _ _ _
  · rw [Shape.rowMajor_val_three, Shape.rowMajor_val_two]
    show (R.val / 4096 * 4096 + R.val % 4096) * 1024 + k.val = R.val * 1024 + k.val
    omega

/-- The matrix window holds the folded matrix. -/
theorem V_mat (A : RealArgs) (c : Dev nD) (h : Ag m A c) (d j : Fin 1024) :
    (V m c main_v0_0 : S1024x1024.Idx → EReal) (ix2 d j) = ((kMat A.lnw A.W A.s3 A.s5 d j : ℝ) : EReal) := by
  rw [e_mat]
  exact matArr_real A _ _ _ _ h.hlnw h.hW h.hs3 h.hs5 h.hs5nn d j

/-- The bias window holds the folded bias row. -/
theorem V_bias (A : RealArgs) (c : Dev nD) (h : Ag m A c) (j : Fin 1024) :
    (V m c main_v0_1 : S1x1024.Idx → EReal) (ix2 (0 : Fin 1) j) = ((kBias A.lnb A.bb A.W A.s3 A.s5 j : ℝ) : EReal) := by
  rw [e_bias]
  exact biasArr_real A _ _ _ _ _ h.hlnb h.hW h.hbb h.hs3 h.hs5 h.hs5nn j

end Cert.KerHost

end
-- ==== Proof.KerPay.lean ====
/-
  The kernel body's stored value at (row r, channel j) of a block, at the ideal values, from real blocks.
-/
import proofs.«430660_j16733192585808_3_alg».proof.Proof.Gen.KernelIdeal.Skeleton
import proofs.«430660_j16733192585808_3_alg».proof.Proof.Spec
import proofs.«430660_j16733192585808_3_alg».proof.Proof.Consts
import Idealize.ShloMosaic.Lib.ValueLayout

noncomputable section

namespace Cert.KerPay

open Idealize.ShloMosaic Idealize.ShloMosaic.ValueIdx Cert.Spec
open Cert.KernelIdeal Cert.KernelIdeal.Gen
open scoped BigOperators

/-! ## Column forms of the layout operations, read at an index -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two non-pointwise operations of the body at an index -/

/-- The sum along the 1024 lanes of a block, read at row `r`. -/
theorem laneSum_apply (src : FVec Ideal S2048x1024 .f32) (hφ : FTy.f32 = FTy.f32 ∨ FTy.f32 = FTy.bf16)
    (hacc : (0x00000000#32 : BitVec 32) = 0x00000000#32) (r : Fin 2048) :
    multiReduction (F := Ideal) .add [1] S2048 src 0x00000000#32 reduces_S2048x1024_S2048 hφ hacc (ix1 r)
      = ∑ k : Fin 1024, src (ix2 r k) :=
  (Ideal.multiReduction_add_single src 0x00000000#32 reduces_S2048x1024_S2048 hφ hacc (ix1 r)).trans
    (Finset.sum_congr rfl fun k _ => congrArg src (funext fun c => Fin.ext (by
      match c with
      | ⟨0, _⟩ => rfl
      | ⟨1, _⟩ => rfl)))

/-- The left operand is read at the output's row … -/
theorem lhs_axis0 (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
/-- … and at the contracted coordinate as its column. -/
theorem lhs_axis1 (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q
/-- The matrix is read at the contracted coordinate as its row … -/
theorem rhs_axis0 (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q
/-- … and at the output's column. -/
theorem rhs_axis1 (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- The product of a block with the matrix into the zero accumulator, at `(r, j)`: row `r` of the block against column `j`. -/
theorem matmul_zero_apply (l : FVec Ideal S2048x1024 .bf16) (m : FVec Ideal S1024x1024 .bf16) (r : Fin 2048) (j : Fin 1024) :
    matmul dot_S2048x1024_S1024x1024_S2048x1024_1_0_0_1_n_n none l m (constant (F := Ideal) S2048x1024 .f32 0x00000000#32) (ix2 r j)
      = ∑ d : Fin 1024, l (ix2 r d) * m (ix2 d j) := by
  refine (Ideal.matmul_constant_zero_apply dot_S2048x1024_S1024x1024_S2048x1024_1_0_0_1_n_n none l m (ix2 r j)).trans ?_
  rw [← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 r j) ((contrEquiv1 dot_S2048x1024_S1024x1024_S2048x1024_1_0_0_1_n_n 1024 rfl rfl).symm k) = ix2 r k := funext fun a => Fin.ext (by
    match a with
    | ⟨0, _⟩ => exact lhs_axis0 _ _
    | ⟨1, _⟩ => exact (lhs_axis1 _ _).trans hk)
  have er : dot_S2048x1024_S1024x1024_S2048x1024_1_0_0_1_n_n.rhsIdx (ix2 r j) ((contrEquiv1 dot_S2048x1024_S1024x1024_S2048x1024_1_0_0_1_n_n 1024 rfl rfl).symm k) = ix2 k j := funext fun a => Fin.ext (by
    match a with
    | ⟨0, _⟩ => exact (rhs_axis0 _ _).trans hk
    | ⟨1, _⟩ => exact rhs_axis1 _ _)
  rw [el, er]

/-! ## Real arithmetic inside the extended reals -/

/-- A finite sum of reals, each read as an extended real, is the real sum read as an extended real. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The reciprocal root of a positive real is the real reciprocal root. -/
theorem rsqrt_of_pos (y : ℝ) (hy : 0 < y) : Ideal.rsqrt (y : EReal) = (((Real.sqrt y)⁻¹ : ℝ) : EReal) := by
  rw [Ideal.rsqrt_coe, if_neg (not_lt.mpr hy.le), if_neg hy.ne']

/-- The reciprocal root of a block, read at an index, is the reciprocal root of the entry. -/
theorem rsqrt_apply {s : Shape} {φ : FTy} (v : FVec Ideal s φ) (i : s.Idx) : rsqrt v i = Ideal.rsqrt (v i) := rfl

/-- The kernel's reciprocal of the row length. -/
theorem lit_inv1024 : (FloatOps.ofBits (F := Ideal) .f32 0x3A800000#32 : EReal) = ((1 / 1024 : ℝ) : EReal) := Cert.Consts.ofBits_inv1024
/-- The kernel's epsilon. -/
theorem lit_eps : (FloatOps.ofBits (F := Ideal) .f32 0x3727C5AC#32 : EReal) = ((epsR : ℝ) : EReal) := Cert.Consts.ofBits_eps

/-- Mean of squares minus squared mean is the mean squared deviation from the mean, hence not negative. -/
theorem kvar_eq (x : Row) : kvar x = (∑ k, (x k - kmean x) * (x k - kmean x)) * (1 / 1024) := by
  have hS : (∑ k, x k) = 1024 * kmean x := by unfold kmean; ring
  have h1 : ∑ k, (x k - kmean x) * (x k - kmean x)
      = (∑ k, x k * x k) - 2 * kmean x * (∑ k, x k) + 1024 * (kmean x * kmean x) := by
    have e : ∀ k, (x k - kmean x) * (x k - kmean x) = x k * x k - 2 * kmean x * x k + kmean x * kmean x := fun k => by ring
    simp only [e, Finset.sum_add_distrib, Finset.sum_sub_distrib, ← Finset.mul_sum, Finset.sum_const, Finset.card_univ,
      Fintype.card_fin, nsmul_eq_mul]
    norm_num <;> ring
  rw [h1, hS]; unfold kvar; ring

theorem kvar_nonneg (x : Row) : 0 ≤ kvar x := by
  rw [kvar_eq]
  exact mul_nonneg (Finset.sum_nonneg fun k _ => mul_self_nonneg _) (by norm_num)

theorem kvar_eps_pos (x : Row) : 0 < kvar x + epsR := add_pos_of_nonneg_of_pos (kvar_nonneg x) epsR_pos

/-- On a block of real rows, a real matrix and a real bias row the body stores the kernel's row. -/
theorem pay_at (x0 : FVec Ideal S2048x1024 .f32) (mv : FVec Ideal S1024x1024 .bf16) (bv : FVec Ideal S1x1024 .f32)
    (xr : Fin 2048 → Row) (mat : Fin 1024 → Fin 1024 → ℝ) (bias : Row)
    (hx : ∀ (r : Fin 2048) (k : Fin 1024), x0 (ix2 r k) = ((xr r k : ℝ) : EReal))
    (hm : ∀ d j : Fin 1024, mv (ix2 d j) = ((mat d j : ℝ) : EReal))
    (hb : ∀ j : Fin 1024, bv (ix2 (0 : Fin 1) j) = ((bias j : ℝ) : EReal))
    (r : Fin 2048) (j : Fin 1024) :
    (k0_pay1 (F := Ideal) x0 mv bv) (ix2 r j) = ((kRow (xr r) mat bias j : ℝ) : EReal) := by
  -- the variance plus epsilon is positive: the reciprocal root below is a real's
  have hy : 0 < kvar (xr r) + epsR := kvar_eps_pos (xr r)
  unfold kvar kmean at hy
  unfold k0_pay1
  -- the index through the pointwise operations, the layout operations and the two products
  simp only [shapeCast_self, addf_apply, mulf_apply, subf_apply, broadcast_apply, truncf_apply, rsqrt_apply,
    matmul_zero_apply, broadcastTo_1b_ab_apply, broadcastTo_a1_ab_apply, shapeCast_a_a1_apply]
  -- the two lane sums: of the row, and of its squares
  rw [laneSum_apply, laneSum_apply]
  -- every entry is a real: the coercion moves outwards, through the reciprocal root by positivity
  simp only [mulf_apply, hx, hm, hb, lit_inv1024, lit_eps, sum_coe, ← EReal.coe_mul, ← EReal.coe_sub,
    ← EReal.coe_add, rsqrt_of_pos _ hy]
  refine congrArg Real.toEReal ?_
  -- over the reals the second product's left operand is n - n = 0
  unfold kRow kn0 krstd kvar kmean
  simp only [sub_self, zero_mul, Finset.sum_const_zero, add_zero]

end Cert.KerPay

end
-- ==== Proof.KerArr.lean ====
/-
  The kernel's output array after the region.  Grid point t stages rows t * 2048 .. t * 2048 + 2047 of the re-laid
  input (32768 rows of 1024 channels), the whole folded matrix and the whole bias row, and writes back the same rows of
  the output; so what point t writes back is block t of ONE function of the arguments, row R of which is the kernel's
  output row on input row (R / 4096, R % 4096), and the sixteen blocks tile the array.
-/
import proofs.«430660_j16733192585808_3_alg».proof.Proof.Gen.KernelIdeal.Frame
import proofs.«430660_j16733192585808_3_alg».proof.Proof.Spec
import proofs.«430660_j16733192585808_3_alg».proof.Proof.KerHost
import proofs.«430660_j16733192585808_3_alg».proof.Proof.KerPay
import Idealize.ShloMosaic.Lib.Pipeline.Value

noncomputable section

namespace Cert.KerArr

open Idealize.ShloMosaic Idealize.ShloMosaic.ValueIdx Idealize.ShloMosaic.TcCoe Idealize.SL.Sem Cert.Spec
open Cert.KernelIdeal Cert.KernelIdeal.Gen Cert.KerHost
open Idealize.ShloMosaic.Pipeline (Dat Cfg Window)

variable (m : (ℓ : Loc nD τ sig) → Buf (Elt Ideal) ℓ)

/-- Row R of the 32768 re-laid rows is input row (R / 4096, R % 4096). -/
def xrow (A : RealArgs) (R : Fin 32768) : Row :=
  A.xr ⟨R.val / 4096, by have := R.isLt; omega⟩ ⟨R.val % 4096, by have := R.isLt; omega⟩

/-- The kernel's output at re-laid row R, channel j. -/
def g2 (A : RealArgs) (R : Fin 32768) (j : Fin 1024) : EReal :=
  ((kOutRow (xrow A R) A.lnw A.lnb A.bb A.W A.s3 A.s5 j : ℝ) : EReal)

/-- The output array as one function of the arguments. -/
def G2 (A : RealArgs) : S32768x1024.Idx → EReal := fun i => g2 A (i 0) (i 1)

theorem hz : (![0, 0] : Fin 2 → Nat) = fun _ => 0 := funext fun a => by fin_cases a <;> rfl

/-- The printed index maps over the sixteen points: the input and output windows are at block row t, the matrix and the
    bias at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block row of the output is some point's. -/
theorem idx_onto3 : ∀ q0 : Fin 16, ∃ t : Fin cfg0.N, win0_3.index t = ![q0.val, 0] :=
  (by decide +kernel : ∀ q0 : Fin 16, ∃ t : Fin grid0.N, win0_3.index t = ![q0.val, 0])

/-- One point's stored block, over blocks given as plain arrays: if the three loaded blocks are rows T * 2048 + r of the
    re-laid input, the folded matrix and the folded bias, the stored value at (r, q) is the output at row T * 2048 + r. -/
theorem point_eq (A : RealArgs) (c : Dev nD) (h : Ag m A c) (T : Nat) (hT : T < 16)
    (x0 : FVec Ideal S2048x1024 .f32) (mv : FVec Ideal S1024x1024 .bf16) (bv : FVec Ideal S1x1024 .f32)
    (hx : ∀ (r : Fin 2048) (k : Fin 1024), x0 (ix2 r k)
      = (V m c main_v1 : S32768x1024.Idx → EReal) (ix2 (⟨T * 2048 + r.val, by have := r.isLt; omega⟩ : Fin 32768) k))
    (hm : ∀ d j : Fin 1024, mv (ix2 d j) = (V m c main_v0_0 : S1024x1024.Idx → EReal) (ix2 d j))
    (hb : ∀ j : Fin 1024, bv (ix2 (0 : Fin 1) j) = (V m c main_v0_1 : S1x1024.Idx → EReal) (ix2 (0 : Fin 1) j))
    (r : Fin 2048) (q : Fin 1024) :
    (k0_pay1 (F := Ideal) x0 mv bv) (ix2 r q) = g2 A (⟨T * 2048 + r.val, by have := r.isLt; omega⟩ : Fin 32768) q := by
  rw [Cert.KerPay.pay_at x0 mv bv
    (fun r => xrow A (⟨T * 2048 + r.val, by have := r.isLt; omega⟩ : Fin 32768))
    (kMat A.lnw A.W A.s3 A.s5) (kBias A.lnb A.bb A.W A.s3 A.s5)
    (fun r k => (hx r k).trans (V_x m A c h _ k))
    (fun d j => (hm d j).trans (V_mat m A c h d j))
    (fun j => (hb j).trans (V_bias m A c h j)) r q]
  rfl

/-- WHAT POINT t WRITES BACK is block t of the output function. -/
theorem flushed3_eq (A : RealArgs) (c : Dev nD) (h : Ag m A c) (t : Fin cfg0.N) :
    (dats m 0 c).flushed 3 t = ((cfg0.win 3).blk t).view.read (Elt Ideal) (G2 A) := by
  show (cfg0.win 3).cut (grid0.coords t) ((dats m 0 c).after 3 t) = _
  rw [after0_3]
  unfold out0_3
  rw [View.canon_unit_zero hz]
  simp only [View.ld_unit_zero (S := S2048x1024) hz, View.ld_unit_zero (S := S1024x1024) hz,
    View.ld_unit_zero (S := S1x1024) hz]
  obtain ⟨e00, e01, e10, e11, e20, e21, e30, e31⟩ := idx_facts t
  have htN : t.val < 16 := by have h1 := t.isLt; have h2 : cfg0.N = 16 := N_0; omega
  funext y
  obtain ⟨r, q, rfl⟩ : ∃ (r : Fin 2048) (q : Fin 1024), y = ix2 r q := ⟨y 0, y 1, eq_ix2 y⟩
  show (k0_pay1 (F := Ideal) (iblk m c 0 t) (iblk m c 1 t) (iblk m c 2 t)) (ix2 r q)
    = G2 A (((cfg0.win 3).blk t).view.emb (ix2 r q))
  refine (point_eq m A c h t.val htN (iblk m c 0 t) (iblk m c 1 t) (iblk m c 2 t) ?_ ?_ ?_ r q).trans ?_
  · intro r k
    show (V m c main_v1 : S32768x1024.Idx → EReal) (((cfg0.win 0).blk t).view.emb (ix2 r k)) = _
    congr 1
    funext a; apply Fin.ext
    match a with
    | ⟨0, _⟩ => show win0_0.index t (0 : Fin 2) * 2048 + 1 * r.val = t.val * 2048 + r.val; omega
    | ⟨1, _⟩ => show win0_0.index t (1 : Fin 2) * 1024 + 1 * k.val = k.val; omega
  · intro d j
    show (V m c main_v0_0 : S1024x1024.Idx → EReal) (((cfg0.win 1).blk t).view.emb (ix2 d j)) = _
    congr 1
    funext a; apply Fin.ext
    match a with
    | ⟨0, _⟩ => show win0_1.index t (0 : Fin 2) * 1024 + 1 * d.val = d.val; omega
    | ⟨1, _⟩ => show win0_1.index t (1 : Fin 2) * 1024 + 1 * j.val = j.val; omega
  · intro j
    show (V m c main_v0_1 : S1x1024.Idx → EReal) (((cfg0.win 2).blk t).view.emb (ix2 (0 : Fin 1) j)) = _
    congr 1
    funext a; apply Fin.ext
    match a with
    | ⟨0, _⟩ => show win0_2.index t (0 : Fin 2) * 1 + 1 * 0 = 0; omega
    | ⟨1, _⟩ => show win0_2.index t (1 : Fin 2) * 1024 + 1 * j.val = j.val; omega
  · have e3 : ((cfg0.win 3).blk t).view.emb (ix2 r q)
        = ix2 (⟨t.val * 2048 + r.val, by have := r.isLt; omega⟩ : Fin 32768) q := by
      funext a; apply Fin.ext
      match a with
      | ⟨0, _⟩ => show win0_3.index t (0 : Fin 2) * 2048 + 1 * r.val = t.val * 2048 + r.val; omega
      | ⟨1, _⟩ => show win0_3.index t (1 : Fin 2) * 1024 + 1 * q.val = q.val; omega
    rw [e3]
    rfl

/-- An index of the output array is in point t's block iff each coordinate is in the block's range on its axis. -/
theorem mem_blk3 (t : Fin cfg0.N) (i : S32768x1024.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v2).slice (win0_3.rect t)).set ↔ _
  rw [View.set_slice_whole, Rect.mem_set_unit]
  exact Iff.rfl

/-- Every index of the output array is in some point's block: row R is in block R / 2048. -/
theorem cover3 (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  obtain ⟨t, ht⟩ := idx_onto3 ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk3]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 1024 ≤ (i 1).val ∧ (i 1).val < win0_3.index t (1 : Fin 2) * 1024 + 1024
    omega

/-- THE OUTPUT ARRAY after the region is the output function. -/
theorem final3 (A : RealArgs) (c : Dev nD) (h : Ag m A c) : (dats m 0 c).arrAt 3 cfg0.N = G2 A :=
  (dats m 0 c).arrAt_eq_of_cover 3 (G2 A) (fun t _ => flushed3_eq m A c h t) cover3

end Cert.KerArr

end
-- ==== Proof.Algebra.lean ====
/-
  The kernel's folded row is the reference's row, over the reals.
-/
import proofs.«430660_j16733192585808_3_alg».proof.Proof.Spec

noncomputable section

namespace Cert.Algebra

open Cert.Spec
open scoped BigOperators

/-! ## The two normalisations agree -/

/-- Multiplying the sum by 1/1024 is dividing it by 1024. -/
theorem kmean_eq (x : Row) : kmean x = mean x := by
  unfold kmean mean; ring

/-- The sum of squared deviations from any m, expanded:
    sum (x k - m)^2 = sum x k^2 - 2 m sum x k + 1024 m^2. -/
theorem sum_sq_dev (x : Row) (m : ℝ) :
    ∑ k : Fin 1024, (x k - m) * (x k - m)
      = (∑ k, x k * x k) - 2 * m * (∑ k, x k) + 1024 * (m * m) := by
  have h : ∀ k : Fin 1024, (x k - m) * (x k - m) = x k * x k - 2 * m * x k + m * m := fun k => by ring
  simp only [h, Finset.sum_add_distrib, Finset.sum_sub_distrib, ← Finset.mul_sum, Finset.sum_const,
    Finset.card_univ, Fintype.card_fin, nsmul_eq_mul]
  push_cast
  ring

/-- Mean of squares minus squared mean is the mean squared deviation, because the sum of the row is 1024 times its mean. -/
theorem kvar_eq (x : Row) : kvar x = var x := by
  have hs : ∑ k, x k = 1024 * mean x := by unfold mean; ring
  unfold kvar var
  rw [kmean_eq, sum_sq_dev, hs]
  ring

theorem krstd_eq (x : Row) : krstd x = rstd x := by
  unfold krstd rstd; rw [kvar_eq]

/-- The reference's normalised, scaled and shifted channel is the kernel's normalised channel, scaled and shifted. -/
theorem normed_eq (x lnw lnb : Row) (d : Fin 1024) : normed x lnw lnb d = kn0 x d * lnw d + lnb d := by
  unfold normed kn0; rw [kmean_eq, krstd_eq]

/-! ## A sum against a one-hot column picks one term -/

theorem sum_oneHot (s3 : Fin 512 → Fin 1024) (f : Fin 1024 → ℝ) (p : Fin 512) :
    ∑ d, f d * oneHot s3 d p = f (s3 p) := by
  unfold oneHot
  simp only [mul_ite, mul_one, mul_zero, Finset.sum_ite_eq', Finset.mem_univ, if_true]

/-- The gather matrix contracted against a vector: the vector is read at the gathered channels. -/
theorem kM_contract (W : Fin 1024 → Fin 512 → ℝ) (s3 : Fin 512 → Fin 1024) (v : Row) (e : Fin 1024) :
    ∑ d, v d * kM W s3 d e = ∑ p, v (s3 p) * W e p := by
  calc ∑ d, v d * kM W s3 d e
      = ∑ d, ∑ p, (v d * oneHot s3 d p) * W e p := by
        refine Finset.sum_congr rfl fun d _ => ?_
        unfold kM
        rw [Finset.mul_sum]
        refine Finset.sum_congr rfl fun p _ => ?_
        ring
    _ = ∑ p, ∑ d, (v d * oneHot s3 d p) * W e p := Finset.sum_comm
    _ = ∑ p, v (s3 p) * W e p := by
        refine Finset.sum_congr rfl fun p _ => ?_
        rw [← Finset.sum_mul, sum_oneHot]

/-- The folded matrix (without the scale) contracted against a vector: gather, multiply, scatter. -/
theorem kM2_contract (W : Fin 1024 → Fin 512 → ℝ) (s3 : Fin 512 → Fin 1024) (s5 : Fin 1024 → BitVec 32)
    (v : Row) (j : Fin 1024) :
    ∑ d, v d * kM2 W s3 s5 d j = ∑ e, scat s5 e j * ∑ p, v (s3 p) * W e p := by
  calc ∑ d, v d * kM2 W s3 s5 d j
      = ∑ d, ∑ e, scat s5 e j * (v d * kM W s3 d e) := by
        refine Finset.sum_congr rfl fun d _ => ?_
        unfold kM2
        rw [Finset.mul_sum]
        refine Finset.sum_congr rfl fun e _ => ?_
        ring
    _ = ∑ e, ∑ d, scat s5 e j * (v d * kM W s3 d e) := Finset.sum_comm
    _ = ∑ e, scat s5 e j * ∑ p, v (s3 p) * W e p := by
        refine Finset.sum_congr rfl fun e _ => ?_
        rw [← Finset.mul_sum, kM_contract]

/-- Multiplying by the scatter indicator keeps the term exactly when the update lands on the channel. -/
theorem scat_mul (s5 : Fin 1024 → BitVec 32) (e j : Fin 1024) (t : ℝ) :
    scat s5 e j * t = if hit s5 e j then t else 0 := by
  unfold scat
  split_ifs <;> simp

/-- Mean of squares minus squared mean is the mean squared deviation, so the two normalisations agree; a sum against a
    one-hot column picks one term, so the folded matrix and bias give the gathered, multiplied and scattered row. -/
theorem kOutRow_eq_outRow (x lnw lnb bb : Row) (W : Fin 1024 → Fin 512 → ℝ) (s3 : Fin 512 → Fin 1024)
    (s5 : Fin 1024 → BitVec 32) (j : Fin 1024) :
    kOutRow x lnw lnb bb W s3 s5 j = outRow x lnw lnb bb W s3 s5 j := by
  -- the scaled part of the matrix and the shift part of the bias together are the affine row against the unscaled matrix
  have hsplit : (∑ d, kn0 x d * kMat lnw W s3 s5 d j) + ∑ d, lnb d * kM2 W s3 s5 d j
      = ∑ d, normed x lnw lnb d * kM2 W s3 s5 d j := by
    rw [← Finset.sum_add_distrib]
    refine Finset.sum_congr rfl fun d _ => ?_
    rw [normed_eq]; unfold kMat; ring
  have hre : x j + (∑ d, kn0 x d * kMat lnw W s3 s5 d j)
        + ((∑ e, bb e * scat s5 e j) + ∑ d, lnb d * kM2 W s3 s5 d j)
      = x j + (((∑ d, kn0 x d * kMat lnw W s3 s5 d j) + ∑ d, lnb d * kM2 W s3 s5 d j)
        + ∑ e, bb e * scat s5 e j) := by ring
  unfold kOutRow kRow kBias outRow
  rw [hre, hsplit, kM2_contract, ← Finset.sum_add_distrib]
  congr 1
  refine Finset.sum_congr rfl fun e _ => ?_
  rw [← scat_mul]; unfold lin; ring

end Cert.Algebra

end
-- ==== Proof.KerRun.lean ====
/-
  The kernel program's run, read.  After the region the output array (32768 rows of 1024 channels) is re-laid as
  8 x 4096 x 1024: entry (b, s, j) of the result is entry (b * 4096 + s, j) of the array, whose row is the kernel's output
  row on input row (b, s); by the row algebra that is the reference's output row.  So the program ends with its result
  at the common result array and its seven arguments as launched.
-/
import proofs.«430660_j16733192585808_3_alg».proof.Proof.KerArr
import proofs.«430660_j16733192585808_3_alg».proof.Proof.Algebra
import Idealize.ShloMosaic.Lib.StableHlo.Run

noncomputable section

namespace Cert.KerRun

open Idealize.ShloMosaic Idealize.ShloMosaic.ValueIdx Idealize.ShloMosaic.TcCoe Idealize.SL.Sem Cert.Spec
open Cert.KernelIdeal Cert.KernelIdeal.Gen Cert.KerHost Cert.KerArr
open Idealize.ShloMosaic.StableHlo

variable (m : (ℓ : Loc nD τ sig) → Buf (Elt Ideal) ℓ)

/-- The re-laid output at (b, s, j) is the output function at row b * 4096 + s. -/
theorem relaid_apply (A : RealArgs) (b : Fin 8) (s : Fin 4096) (j : Fin 1024) :
    shapeCast S8x4096x1024 (G2 A) shapeCasts_S32768x1024_S8x4096x1024 (ix3 b s j) = Gfun A (ix3 b s j) := by
  have hb := b.isLt
  have hs := s.isLt
  rw [shapeCast_apply (G2 A) shapeCasts_S32768x1024_S8x4096x1024 (ix3 b s j)
    (ix2 (⟨b.val * 4096 + s.val, by omega⟩ : Fin 32768) j) (by
      rw [Shape.rowMajor_val_two, Shape.rowMajor_val_three]
      rfl)]
  rw [Gfun_apply, ← Cert.Algebra.kOutRow_eq_outRow]
  show g2 A (⟨b.val * 4096 + s.val, _⟩ : Fin 32768) j = _
  unfold g2 xrow
  have e1 : (b.val * 4096 + s.val) / 4096 = b.val := by omega
  have e2 : (b.val * 4096 + s.val) % 4096 = s.val := by omega
  simp only [e1, e2]

/-- The program's result after the host lines that follow the region. -/
theorem tail_eq (A : RealArgs) (c : Dev nD) (h : Ag m A c) :
    Pipeline.afterTail₀ cfgs (dats m) 0 (V0 m) [hostOps1] c main_v3 = Gfun A := by
  unfold Pipeline.afterTail₀
  show StableHlo.after hostOps1 _ (Proc.devRef .tc main_v3) = _
  after_results
  have hw : Pipeline.withArrays (cfgs 0).spec c (V0 m c) (fun w => (dats m 0 c).arrAt w (cfgs 0).N)
      (Proc.devRef .tc main_v2) = G2 A :=
    (Pipeline.withArrays_arr spec0 winFacts0.arr_inj c (V0 m c) (fun w => (dats m 0 c).arrAt w cfg0.N) 3).trans
      (final3 m A c h)
  funext i
  obtain ⟨b, s, j, rfl⟩ : ∃ (b : Fin 8) (s : Fin 4096) (j : Fin 1024), i = ix3 b s j := ⟨i 0, i 1, i 2, eq_ix3 i⟩
  show shapeCast S8x4096x1024 (Pipeline.withArrays (cfgs 0).spec c (V0 m c) (fun w => (dats m 0 c).arrAt w (cfgs 0).N)
      (Proc.devRef .tc main_v2)) shapeCasts_S32768x1024_S8x4096x1024 (ix3 b s j) = _
  rw [hw]
  exact relaid_apply A b s j

/-- Every weakly fair execution of the kernel program terminates with its result at the common result array and
    its arguments as launched. -/
theorem run (ρ : Dev nD → PrngReg) (A : Dev nD → RealArgs) (h : ∀ c, Ag m (A c) c) :
    θ_run defs (onTc (τ := τ) (main (F := Ideal))) ⟨m, fun _ => 0, ρ⟩ (fun r => ∀ c : Dev nD,
      r.2.mem ((c.tc : Thread nD τ).loc main_v3) = Gfun (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ hr c =>
    ⟨((hr c).2 main_v3 (Pipeline.mem_restRefs_of main_v3 (by decide) (by decide))).trans (tail_eq m (A c) c (h c)),
      ((hr c).2 main_arg0 (Pipeline.mem_restRefs_of main_arg0 (by decide) (by decide))).trans (W_main_arg0 m (dats m) c),
      ((hr c).2 main_arg1 (Pipeline.mem_restRefs_of main_arg1 (by decide) (by decide))).trans (W_main_arg1 m (dats m) c),
      ((hr c).2 main_arg2 (Pipeline.mem_restRefs_of main_arg2 (by decide) (by decide))).trans (W_main_arg2 m (dats m) c),
      ((hr c).2 main_arg3 (Pipeline.mem_restRefs_of main_arg3 (by decide) (by decide))).trans (W_main_arg3 m (dats m) c),
      ((hr c).2 main_arg4 (Pipeline.mem_restRefs_of main_arg4 (by decide) (by decide))).trans (W_main_arg4 m (dats m) c),
      ((hr c).2 main_arg5 (Pipeline.mem_restRefs_of main_arg5 (by decide) (by decide))).trans (W_main_arg5 m (dats m) c),
      ((hr c).2 main_arg6 (Pipeline.mem_restRefs_of main_arg6 (by decide) (by decide))).trans (W_main_arg6 m (dats m) c)⟩)
    (run_main m ρ)

end Cert.KerRun

end
-- ==== Proof.lean ====
/-
  The certificate of the fused layer: LayerNorm, a gather of 512 of the 1024 channels, a 512 -> 1024 linear layer and a
  scatter-add into the residual, computed by the kernel as ONE 1024 x 1024 matrix and one bias row folded beforehand,
  against the plain composition.

  Under the precondition (the five float arrays finite, the gather indices in [0, 1024), the scatter indices
  non-negative) every argument has real witnesses (PreFacts).  The reference's last stage, read index by index, is the
  specification's output row at every (batch, position) (RefAt).  The kernel program's three input windows hold the
  re-laid input, the folded matrix and the folded bias (KerHost); its body stores the kernel's row (KerPay); the sixteen
  row blocks tile the output array (KerArr); the host line after the region re-lays it, and the row algebra (Algebra:
  mean of squares minus squared mean is the mean squared deviation; a sum against a one-hot column picks one term) turns
  the kernel's row into the reference's (KerRun).  Both programs therefore end at the same array.

  The three frames are the generated frame runs (the reference's is its run with the result dropped); the one ledger
  entry (a narrowing to bf16 followed by the widening back is the identity at the ideal values) is the rule's statement.
-/
import proofs.«430660_j16733192585808_3_alg».proof.Defs
import proofs.«430660_j16733192585808_3_alg».proof.Proof.Gen.Kernel
import proofs.«430660_j16733192585808_3_alg».proof.Proof.Gen.Kernel.Skeleton
import proofs.«430660_j16733192585808_3_alg».proof.Proof.Gen.Kernel.Launch
import proofs.«430660_j16733192585808_3_alg».proof.Proof.Gen.Kernel.Points
import proofs.«430660_j16733192585808_3_alg».proof.Proof.Gen.Kernel.Frame
import proofs.«430660_j16733192585808_3_alg».proof.Proof.Gen.KernelIdeal
import proofs.«430660_j16733192585808_3_alg».proof.Proof.Gen.KernelIdeal.Skeleton
import proofs.«430660_j16733192585808_3_alg».proof.Proof.Gen.KernelIdeal.Launch
import proofs.«430660_j16733192585808_3_alg».proof.Proof.Gen.KernelIdeal.Points
import proofs.«430660_j16733192585808_3_alg».proof.Proof.Gen.KernelIdeal.Frame
import proofs.«430660_j16733192585808_3_alg».proof.Proof.Gen.ReferenceIdeal
import proofs.«430660_j16733192585808_3_alg».proof.Proof.Gen.Pre_finite_inputs
import proofs.«430660_j16733192585808_3_alg».proof.Proof.Gen.ReferenceIdeal.Run
import proofs.«430660_j16733192585808_3_alg».proof.Proof.Gen.ReferenceIdeal.Read
import proofs.«430660_j16733192585808_3_alg».proof.Proof.PreFacts
import proofs.«430660_j16733192585808_3_alg».proof.Proof.RefAt
import proofs.«430660_j16733192585808_3_alg».proof.Proof.KerRun
import Idealize.ShloMosaic.Adequacy
import Idealize.ShloMosaic.Init

noncomputable section

namespace Cert.Proof

open Idealize.ShloMosaic Idealize.SL.Sem Cert.Kernel

attribute [local instance] Cert.Kernel.Gen.facts Cert.KernelIdeal.Gen.facts Cert.ReferenceIdeal.Gen.facts
  Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: widening what was narrowed is the identity at the ideal values. -/
theorem preserves : Cert.preserves_Kernel_KernelIdeal :=
  IdealRules.truncf_extf.statement Cert.KernelIdeal.S2048x1024 .f32 .bf16

/-- Both programs end at the common result array of the arguments' real witnesses. -/
theorem algebraic : Cert.algebraic_KernelIdeal_ReferenceIdeal := by
  intro m ρ m' ρ' hpre hagree
  choose A hA using fun c => Cert.PreFacts.agrees_of_pre m hpre c
  refine ⟨fun c => Cert.Spec.Gfun (A c), Cert.KerRun.run m ρ A hA, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, (hagree c).1, (hagree c).2.1, (hagree c).2.2.1, (hagree c).2.2.2.1,
    (hagree c).2.2.2.2.1, (hagree c).2.2.2.2.2.1, (hagree c).2.2.2.2.2.2]
  exact Cert.RefAt.ref_eq (A c) _ _ _ _ _ _ _ (hA c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
